-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 32000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x32000 : Shape := ⟨2, ![4096, 32000]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S512x6400 : Shape := ⟨2, ![512, 6400]⟩
abbrev S512x1 : Shape := ⟨2, ![512, 1]⟩
abbrev S512x1280 : Shape := ⟨2, ![512, 1280]⟩
abbrev S512 : Shape := ⟨1, ![512]⟩

abbrev nBuf : Space → Nat
  | .hbm => 54
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_cst_4 : Ref sig .tc := ⟨.hbm, 44, rfl⟩
abbrev main_v16 : Ref sig .tc := ⟨.hbm, 45, rfl⟩
abbrev main_cst_5 : Ref sig .tc := ⟨.hbm, 46, rfl⟩
abbrev main_v17 : Ref sig .tc := ⟨.hbm, 47, rfl⟩
abbrev main_v18 : Ref sig .tc := ⟨.hbm, 48, rfl⟩
abbrev main_cst_6 : Ref sig .tc := ⟨.hbm, 49, rfl⟩
abbrev main_v19 : Ref sig .tc := ⟨.hbm, 50, rfl⟩
abbrev main_cst_7 : Ref sig .tc := ⟨.hbm, 51, rfl⟩
abbrev main_v20 : Ref sig .tc := ⟨.hbm, 52, rfl⟩
abbrev main_v21 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 5], ![false, false]⟩

def k0_mult1 : BitVec 32 :=
  let c0_i32_1 : BitVec 32 := 0#32
  let c1280_i32 : BitVec 32 := 1280#32
  let v3 : BitVec 32 := Scalar.muli c0_i32_1 c1280_i32
  v3
def k0_off1 (c0_i32_1 : BitVec 32) : Fin 2 → Nat :=
  let c0 : Index := 0#32
  let c1280_i32 : BitVec 32 := 1280#32
  let v3 : BitVec 32 := Scalar.muli c0_i32_1 c1280_i32
  let v4 : BitVec 32 := v3
  let v5 : Index := Scalar.indexCast v4
  ![0, v5.toNat]
def k0_mult2 : BitVec 32 :=
  let c1_i32 : BitVec 32 := 1#32
  let c1280_i32_11 : BitVec 32 := 1280#32
  let v27 : BitVec 32 := Scalar.muli c1_i32 c1280_i32_11
  v27
def k0_mult3 : BitVec 32 :=
  let c2_i32 : BitVec 32 := 2#32
  let c1280_i32_23 : BitVec 32 := 1280#32
  let v51 : BitVec 32 := Scalar.muli c2_i32 c1280_i32_23
  v51
def k0_mult4 : BitVec 32 :=
  let c3_i32 : BitVec 32 := 3#32
  let c1280_i32_35 : BitVec 32 := 1280#32
  let v75 : BitVec 32 := Scalar.muli c3_i32 c1280_i32_35
  v75
def k0_mult5 : BitVec 32 :=
  let c4_i32 : BitVec 32 := 4#32
  let c1280_i32_47 : BitVec 32 := 1280#32
  let v99 : BitVec 32 := Scalar.muli c4_i32 c1280_i32_47
  v99
def k0_cond2 (i : grid0.Coords) : BitVec 1 :=
  let arg1 : BitVec 32 := BitVec.ofNat 32 (i 1).val
  let c4_i32_59 : BitVec 32 := 4#32
  let v123 : BitVec 1 := Scalar.cmpi .eq arg1 c4_i32_59
  let v124 : BitVec 32 := Scalar.extui v123
  let c0_i32_60 : BitVec 32 := 0#32
  let v125 : BitVec 1 := Scalar.cmpi .ne v124 c0_i32_60
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x1280 : 0 < S512x1280.numel
  reduces_S512x1280_S512 : S512x1280.Reduces [1] S512
  shapeCasts_S512_S512x1 : S512.ShapeCasts S512x1
  broadcasts_S512x1_S512x1280 : S512x1.Broadcasts S512x1280
  reducesTo_S4096x1_S_d0_1 : S4096x1.ReducesTo [0, 1] S_
  gather_S4096x32000_S4096x1x1_S4096x1_n_1_0_0_1_2_11_wf : GatherDims.WF S4096x32000 S4096x1x1 S4096x1 [] [1] [0] [1] [0] 2 ![1, 1]
  hrank0 : 0 < grid0.rank
  k0_mult1_dvd : 128 ∣ k0_mult1.toNat
  k0_off1_inb : ∀ (r : Fin 5), ∀ a, (k0_off1 (BitVec.ofNat 32 r.val)) a + S512x1280.size a ≤ S512x6400.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S4096x32000.size a
  hwx0_0 : ∀ i : grid0.Coords, EltTy.bits .f32 = 32 ∨ (Rect.block (s := S4096x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S1x32000 : Shape := ⟨2, ![1, 32000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x32000, .f32⟩
  | .hbm, ⟨15, _⟩ => ⟨S4096x32000, .f32⟩
  | .hbm, ⟨16, _⟩ => ⟨S4096x1, .i32⟩
  | .hbm, ⟨17, _⟩ => ⟨S1x32000, .i32⟩
  | .hbm, ⟨18, _⟩ => ⟨S4096x32000, .i32⟩
  | .hbm, ⟨19, _⟩ => ⟨S4096x32000, .i32⟩
  | .hbm, ⟨20, _⟩ => ⟨S4096x32000, .i1⟩
  | .hbm, ⟨21, _⟩ => ⟨S4096x32000, .f32⟩
  | .hbm, ⟨22, _⟩ => ⟨S4096x32000, .f32⟩
  | .hbm, ⟨23, _⟩ => ⟨S4096x32000, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x32000, .f32⟩
  | .hbm, ⟨43, _⟩ => ⟨S4096x32000, .f32⟩
  | .hbm, ⟨44, _⟩ => ⟨S4096x32000, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1, .f32⟩
  | .hbm, ⟨49, _⟩ => ⟨S4096x32000, .f32⟩
  | .hbm, ⟨50, _⟩ => ⟨S4096x32000, .f32⟩
  | .hbm, ⟨51, _⟩ => ⟨S4096x1, .i32⟩
  | .hbm, ⟨52, _⟩ => ⟨S_, .i32⟩
  | .hbm, ⟨53, _⟩ => ⟨S4096x1, .i32⟩
  | .hbm, ⟨54, _⟩ => ⟨S4096x1, .i1⟩
  | .hbm, ⟨55, _⟩ => ⟨S_, .i32⟩
  | .hbm, ⟨56, _⟩ => ⟨S4096x1, .i32⟩
  | .hbm, ⟨57, _⟩ => ⟨S4096x1, .i32⟩
  | .hbm, ⟨58, _⟩ => ⟨S4096x1, .i32⟩
  | .hbm, ⟨59, _⟩ => ⟨S4096x1x1, .i32⟩
  | .hbm, ⟨60, _⟩ => ⟨S1, .i32⟩
  | .hbm, ⟨61, _⟩ => ⟨S_, .i32⟩
  | .hbm, ⟨62, _⟩ => ⟨S4096x1x1, .i32⟩
  | .hbm, ⟨63, _⟩ => ⟨S4096x1x1, .i1⟩
  | .hbm, ⟨64, _⟩ => ⟨S1x1x1, .i32⟩
  | .hbm, ⟨65, _⟩ => ⟨S4096x1x1, .i32⟩
  | .hbm, ⟨66, _⟩ => ⟨S4096x1x1, .i1⟩
  | .hbm, ⟨67, _⟩ => ⟨S4096x1x1, .i1⟩
  | .hbm, ⟨68, _⟩ => ⟨S_, .i1⟩
  | .hbm, ⟨69, _⟩ => ⟨S4096x1, .i1⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v22 : Ref sig .tc := ⟨.hbm, 50, rfl⟩
abbrev main_v23 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v24 : Ref sig .tc := ⟨.hbm, 73, rfl⟩
abbrev main_v25 : Ref sig .tc := ⟨.hbm, 74, rfl⟩
abbrev main_cst_6 : Ref sig .tc := ⟨.hbm, 75, rfl⟩
abbrev main_v26 : Ref sig .tc := ⟨.hbm, 76, rfl⟩
abbrev main_cst_7 : Ref sig .tc := ⟨.hbm, 77, rfl⟩
abbrev main_v27 : Ref sig .tc := ⟨.hbm, 78, rfl⟩
abbrev main_v28 : Ref sig .tc := ⟨.hbm, 79, rfl⟩
abbrev main_cst_8 : Ref sig .tc := ⟨.hbm, 80, rfl⟩
abbrev main_v29 : Ref sig .tc := ⟨.hbm, 81, rfl⟩
abbrev main_cst_9 : Ref sig .tc := ⟨.hbm, 82, rfl⟩
abbrev main_v30 : Ref sig .tc := ⟨.hbm, 83, rfl⟩
abbrev main_v31 : Ref sig .tc := ⟨.hbm, 84, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S1x32000_S4096x32000_0_1 : S1x32000.BroadcastsInDim S4096x32000 (![0, 1] : Fin 2 → Fin S4096x32000.rank)
  reducesTo_S4096_S_d0 : S4096.ReducesTo [0] S_
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.RowSpec.lean ====
/-
  The arithmetic both programs perform on ONE row of logits, over the extended reals.

  A row is `row : Fin 32000 → EReal` and a label `t : Fin 32000`.  The kernel streams the row in 25 chunks of 1280
  columns, keeping a running maximum `runM` and a running sum `runS` of `exp (x - runM)`, rescaled by
  `exp (old maximum - new maximum)` whenever the maximum moves; its log-sum-exp is `runM + log runS` after the last
  chunk.  The reference takes the row's maximum `refM` and the sum `refS` of `exp (x - refM)` in one pass each.
  Both then form, per row, a log-probability of the label (`kerLp`, `refLp`) and a mean absolute deviation of the
  soft-max from the label's indicator (`kerD` by the closed form `2 (1 - p_t) / C`, `refD` by the sum over the
  classes), and the two per-row vectors go through one and the same closing formula `final`.
  The float words the programs carry are kept as `Ideal.ofBits` words here; the four whose values the law needs
  (-∞, 0, 1, 2) are evaluated once in this file's last section.
-/
import Idealize.ShloMosaic.PureOps.Ideal
import Idealize.ShloMosaic.Lib.ValueIdx

noncomputable section

open scoped BigOperators

namespace Cert.RowSpec

open Idealize.ShloMosaic

/-- The word of -∞ (the initial value of every maximum). -/
abbrev wNegInf : EReal := Ideal.ofBits .f32 0xFF800000#32
/-- The word of 0 (the initial value of every sum). -/
abbrev wZero : EReal := Ideal.ofBits .f32 0x00000000#32
/-- The word of 1. -/
abbrev wOne : EReal := Ideal.ofBits .f32 0x3F800000#32
/-- The word of 2. -/
abbrev wTwo : EReal := Ideal.ofBits .f32 0x40000000#32
/-- The word of 32000 (the number of classes). -/
abbrev wC : EReal := Ideal.ofBits .f32 0x46FA0000#32
/-- The word of 4096 (the number of rows). -/
abbrev wB : EReal := Ideal.ofBits .f32 0x45800000#32

/-! ## The kernel's streaming pass over a row -/

/-- The running maximum after one more chunk: the old maximum against the chunk's own maximum. -/
def updM (ch : Fin 1280 → EReal) (mo : EReal) : EReal :=
  max mo ((Finset.univ : Finset (Fin 1280)).fold max wNegInf ch)

/-- The running sum after one more chunk: the old sum rescaled to the new maximum, plus the chunk's terms. -/
def updS (ch : Fin 1280 → EReal) (mo so : EReal) : EReal :=
  so * Ideal.exp (mo - updM ch mo) + ∑ k : Fin 1280, Ideal.exp (ch k - updM ch mo)

/-- Chunk `n` of a row: columns `1280 n` to `1280 n + 1279` (zero past the row's end, which no chunk below 25 meets). -/
def chunk (row : Fin 32000 → EReal) (n : ℕ) (l : Fin 1280) : EReal :=
  if h : 1280 * n + l.val < 32000 then row ⟨1280 * n + l.val, h⟩ else 0

/-- The running maximum after `n` chunks. -/
def runM (row : Fin 32000 → EReal) : ℕ → EReal
  | 0 => wNegInf
  | n + 1 => updM (chunk row n) (runM row n)

/-- The running sum after `n` chunks. -/
def runS (row : Fin 32000 → EReal) : ℕ → EReal
  | 0 => wZero
  | n + 1 => updS (chunk row n) (runM row n) (runS row n)

/-- The kernel's log-sum-exp of a row: after all 25 chunks. -/
def kLse (row : Fin 32000 → EReal) : EReal := runM row 25 + Ideal.log (runS row 25)

/-- The kernel's log-probability of the label. -/
def kerLp (row : Fin 32000 → EReal) (t : Fin 32000) : EReal := row t - kLse row

/-- The kernel's mean absolute deviation, by the closed form `2 (1 - p_t) / C`. -/
def kerD (row : Fin 32000 → EReal) (t : Fin 32000) : EReal :=
  Ideal.div (wTwo * (wOne - Ideal.exp (kerLp row t))) wC

/-! ## The reference's two passes over a row -/

/-- The row's maximum as the reference takes it. -/
def refM (row : Fin 32000 → EReal) : EReal :=
  max wNegInf ((Finset.univ : Finset (Fin 32000)).fold max wNegInf row)

/-- The sum of the shifted exponentials. -/
def refS (row : Fin 32000 → EReal) : EReal := wZero + ∑ k : Fin 32000, Ideal.exp (row k - refM row)

/-- The soft-max of the row at class `k`. -/
def refP (row : Fin 32000 → EReal) (k : Fin 32000) : EReal := Ideal.div (Ideal.exp (row k - refM row)) (refS row)

/-- The label's indicator at class `k`. -/
def hot (t k : Fin 32000) : EReal := if k = t then 1 else 0

/-- The reference's mean absolute deviation of the soft-max from the label's indicator. -/
def refD (row : Fin 32000 → EReal) (t : Fin 32000) : EReal :=
  Ideal.div (wZero + ∑ k : Fin 32000, max (refP row k - hot t k) (-(refP row k - hot t k))) wC

/-- The reference's log-probability of the label. -/
def refLp (row : Fin 32000 → EReal) (t : Fin 32000) : EReal := (row t - refM row) - Ideal.log (refS row)

/-! ## The closing formula both programs share -/

/-- The loss from the per-row deviations `d` and log-probabilities `lp`:
    `1 · mean (exp (d + d²)) + 1 · (-(mean lp))`, the means over the 4096 rows. -/
def final (d lp : Fin 4096 → EReal) : EReal :=
  wOne * Ideal.div (wZero + ∑ R : Fin 4096, Ideal.exp (d R + d R * d R)) wB
    + wOne * (-(Ideal.div (wZero + ∑ R : Fin 4096, lp R) wB))

/-! ## Rows and labels of the two argument arrays -/

/-- Row `R` of a 4096 × 32000 array. -/
def rowOf (x : (⟨2, ![4096, 32000]⟩ : Shape).Idx → EReal) (R : Fin 4096) : Fin 32000 → EReal :=
  fun k => x (ValueIdx.ix2 R k)

/-- The class a label word names: the word read signed, clamped into the classes (a word in range names itself). -/
def tOf (w : BitVec 32) : Fin 32000 := ⟨min w.toInt.toNat 31999, by omega⟩

/-- The whole result from the two argument arrays, the kernel's way. -/
def kval (x : (⟨2, ![4096, 32000]⟩ : Shape).Idx → EReal) (tg : (⟨1, ![4096]⟩ : Shape).Idx → BitVec 32) : EReal :=
  final (fun R => kerD (rowOf x R) (tOf (tg (ValueIdx.ix1 R)))) (fun R => kerLp (rowOf x R) (tOf (tg (ValueIdx.ix1 R))))

/-- The whole result from the two argument arrays, the reference's way. -/
def rval (x : (⟨2, ![4096, 32000]⟩ : Shape).Idx → EReal) (tg : (⟨1, ![4096]⟩ : Shape).Idx → BitVec 32) : EReal :=
  final (fun R => refD (rowOf x R) (tOf (tg (ValueIdx.ix1 R)))) (fun R => refLp (rowOf x R) (tOf (tg (ValueIdx.ix1 R))))

end Cert.RowSpec

end
-- ==== Proof.RowStream.lean ====
/-
  The streaming pass equals the two-pass form on a row of real numbers.

  A row of reals is read at natural-number columns (`ext`).  The reference's maximum is a real of the row that bounds
  it, and its sum is a real sum.  The kernel's state after `n ≥ 1` chunks is the same pair over the first `1280 n`
  columns (`Inv`): the first chunk starts from `(⊥, 0)`, whose rescaled sum is `0`; every later chunk rescales the old
  sum by `exp (μ - max μ ν)`, which turns each `exp (x - μ)` into `exp (x - max μ ν)`.  After 25 chunks the columns are
  the whole row, and two reals that both bound the row and both occur in it are equal.
-/
import proofs.«424387_j11055245820044_3_alg».proof.Proof.RowSpec

noncomputable section

open scoped BigOperators

namespace Cert.RowSpec

open Idealize.ShloMosaic

/-- The word of -∞ denotes `⊥`. -/
theorem wNegInf_eq : wNegInf = ⊥ := by simp [Ideal.ofBits, Ideal.ieee]

/-- The word of 0 denotes `0`. -/
theorem wZero_eq : wZero = 0 := by simp [Ideal.ofBits, Ideal.ieee]

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, taken among the extended reals. -/
theorem coe_max' (a b : ℝ) : max (a : EReal) (b : EReal) = ((max a b : ℝ) : EReal) :=
  (EReal.coe_strictMono.monotone.map_max).symm

/-- The running maximum from `⊥` over a nonempty finite family of reals is a real of the family that bounds it. -/
theorem fold_max_real {ι : Type} (s : Finset ι) (hs : s.Nonempty) (c : ι → ℝ) :
    ∃ ν : ℝ, s.fold max (⊥ : EReal) (fun i => (c i : EReal)) = (ν : EReal) ∧ (∀ i ∈ s, c i ≤ ν) ∧ ∃ i ∈ s, c i = ν := by
  obtain ⟨i0, hi0, hmax⟩ := Finset.exists_max_image s c hs
  refine ⟨c i0, le_antisymm ?_ ?_, hmax, i0, hi0, rfl⟩
  · rw [Finset.fold_max_le]
    exact ⟨bot_le, fun i hi => EReal.coe_le_coe_iff.mpr (hmax i hi)⟩
  · rw [Finset.le_fold_max]
    exact Or.inr ⟨i0, hi0, le_rfl⟩

/-- The shifted exponential of a real entry against a real maximum. -/
theorem exp_sub_real (a b : ℝ) : Ideal.exp ((a : EReal) - (b : EReal)) = ((Real.exp (a - b) : ℝ) : EReal) := by
  rw [← EReal.coe_sub, Ideal.exp_coe]

/-- One chunk of reals taken from a real state `(μ, S)`: the new maximum is `max μ ν` with `ν` the chunk's
    maximum, and the new sum is the old one rescaled by `exp (μ - max μ ν)` plus the chunk's shifted exponentials. -/
theorem step_real (c : Fin 1280 → ℝ) (μ S : ℝ) :
    ∃ ν : ℝ, (∀ l, c l ≤ ν) ∧ (∃ l, c l = ν) ∧ updM (fun l => (c l : EReal)) (μ : EReal) = ((max μ ν : ℝ) : EReal)
      ∧ updS (fun l => (c l : EReal)) (μ : EReal) (S : EReal)
        = ((S * Real.exp (μ - max μ ν) + ∑ l : Fin 1280, Real.exp (c l - max μ ν) : ℝ) : EReal) := by
  obtain ⟨ν, hν, hle, l0, _, hl0⟩ := fold_max_real (Finset.univ : Finset (Fin 1280)) Finset.univ_nonempty c
  have hM : updM (fun l => (c l : EReal)) (μ : EReal) = ((max μ ν : ℝ) : EReal) := by
    rw [updM, wNegInf_eq, hν, coe_max']
  refine ⟨ν, fun l => hle l (Finset.mem_univ l), ⟨l0, hl0⟩, hM, ?_⟩
  rw [updS, hM, exp_sub_real, ← EReal.coe_mul]
  simp only [exp_sub_real]
  rw [← coe_sum, ← EReal.coe_add]

/-- The first chunk, taken from the initial state `(⊥, 0)`: the rescaled old sum is `0 * exp ⊥ = 0`. -/
theorem step_bot (c : Fin 1280 → ℝ) :
    ∃ ν : ℝ, (∀ l, c l ≤ ν) ∧ (∃ l, c l = ν) ∧ updM (fun l => (c l : EReal)) ⊥ = (ν : EReal)
      ∧ updS (fun l => (c l : EReal)) ⊥ 0 = ((∑ l : Fin 1280, Real.exp (c l - ν) : ℝ) : EReal) := by
  obtain ⟨ν, hν, hle, l0, _, hl0⟩ := fold_max_real (Finset.univ : Finset (Fin 1280)) Finset.univ_nonempty c
  have hM : updM (fun l => (c l : EReal)) ⊥ = (ν : EReal) := by
    rw [updM, wNegInf_eq, hν, max_eq_right bot_le]
  refine ⟨ν, fun l => hle l (Finset.mem_univ l), ⟨l0, hl0⟩, hM, ?_⟩
  rw [updS, hM, zero_mul, zero_add]
  simp only [exp_sub_real]
  rw [← coe_sum]

/-- The row read at a natural-number column (zero past the row's end, which nothing below meets). -/
def ext (r : Fin 32000 → ℝ) (j : ℕ) : ℝ := if h : j < 32000 then r ⟨j, h⟩ else 0

theorem ext_val (r : Fin 32000 → ℝ) (k : Fin 32000) : ext r k.val = r k := by
  simp [ext, k.isLt]

/-- Chunk `n < 25` of a row of reals is the reals at columns `1280 n + l`. -/
theorem chunk_real (r : Fin 32000 → ℝ) (n : ℕ) (hn : n < 25) :
    chunk (fun k => (r k : EReal)) n = fun l => (ext r (1280 * n + l.val) : EReal) := by
  funext l
  have h : 1280 * n + l.val < 32000 := by have := l.isLt; omega
  simp only [chunk, ext, dif_pos h]

/-- A sum over a chunk's lanes is a sum over the 1280 columns from `a`. -/
theorem chunk_sum (f : ℕ → ℝ) (a : ℕ) :
    ∑ l : Fin 1280, f (a + l.val) = ∑ j ∈ Finset.range 1280, f (a + j) :=
  Fin.sum_univ_eq_sum_range (fun j => f (a + j)) 1280

/-- The state after `n ≥ 1` chunks: the running maximum is a real `μ` that bounds the first `1280 n` columns and is
    one of them, and the running sum is `∑ exp (x - μ)` over those columns. -/
def Inv (r : Fin 32000 → ℝ) (n : ℕ) : Prop :=
  ∃ μ : ℝ, runM (fun k => (r k : EReal)) n = (μ : EReal) ∧ (∀ j, j < 1280 * n → ext r j ≤ μ)
    ∧ (∃ j, j < 1280 * n ∧ ext r j = μ)
    ∧ runS (fun k => (r k : EReal)) n = ((∑ j ∈ Finset.range (1280 * n), Real.exp (ext r j - μ) : ℝ) : EReal)

/-- After the first chunk: the initial `(⊥, 0)` contributes nothing. -/
theorem inv_one (r : Fin 32000 → ℝ) : Inv r 1 := by
  obtain ⟨ν, hle, ⟨l0, hl0⟩, hM, hS⟩ := step_bot (fun l : Fin 1280 => ext r (1280 * 0 + l.val))
  refine ⟨ν, ?_, ?_, ?_, ?_⟩
  · show updM (chunk _ 0) wNegInf = _
    rw [chunk_real r 0 (by norm_num), wNegInf_eq]; exact hM
  · intro j hj
    have := hle ⟨j, by omega⟩
    simpa using this
  · exact ⟨l0.val, by have := l0.isLt; omega, by simpa using hl0⟩
  · show updS (chunk _ 0) wNegInf wZero = _
    rw [chunk_real r 0 (by norm_num), wNegInf_eq, wZero_eq, hS]
    refine congrArg _ ?_
    have e := chunk_sum (fun j => Real.exp (ext r j - ν)) (1280 * 0)
    simpa using e

/-- One more chunk: the old sum, rescaled by `exp (μ - max μ ν)`, becomes the sum of `exp (x - max μ ν)` over the old
    columns (`exp (x - μ) * exp (μ - M) = exp (x - M)`), and the chunk's terms extend it by 1280 columns. -/
theorem inv_succ (r : Fin 32000 → ℝ) (n : ℕ) (hn : n < 25) (h : Inv r n) : Inv r (n + 1) := by
  obtain ⟨μ, hM, hle, ⟨j0, hj0, hj0μ⟩, hS⟩ := h
  obtain ⟨ν, hcle, ⟨l0, hl0⟩, hM', hS'⟩ := step_real (fun l : Fin 1280 => ext r (1280 * n + l.val)) μ
    (∑ j ∈ Finset.range (1280 * n), Real.exp (ext r j - μ))
  have hlen : 1280 * (n + 1) = 1280 * n + 1280 := by ring
  refine ⟨max μ ν, ?_, ?_, ?_, ?_⟩
  · show updM (chunk _ n) (runM _ n) = _
    rw [chunk_real r n hn, hM]; exact hM'
  · intro j hj
    by_cases hjn : j < 1280 * n
    · exact le_trans (hle j hjn) (le_max_left _ _)
    · have := hcle ⟨j - 1280 * n, by omega⟩
      have e : 1280 * n + (j - 1280 * n) = j := by omega
      simp only [e] at this
      exact le_trans this (le_max_right _ _)
  · rcases le_total μ ν with hμν | hμν
    · refine ⟨1280 * n + l0.val, by have := l0.isLt; omega, ?_⟩
      rw [max_eq_right hμν]; exact hl0
    · refine ⟨j0, by omega, ?_⟩
      rw [max_eq_left hμν]; exact hj0μ
  · show updS (chunk _ n) (runM _ n) (runS _ n) = _
    have e1 : (∑ j ∈ Finset.range (1280 * n), Real.exp (ext r j - μ) * Real.exp (μ - max μ ν))
        = ∑ j ∈ Finset.range (1280 * n), Real.exp (ext r j - max μ ν) :=
      Finset.sum_congr rfl fun j _ => by rw [← Real.exp_add, sub_add_sub_cancel]
    have e2 := chunk_sum (fun j => Real.exp (ext r j - max μ ν)) (1280 * n)
    beta_reduce at e2
    rw [chunk_real r n hn, hM, hS, hS', hlen, Finset.sum_range_add, Finset.sum_mul, e1, e2]

theorem inv_all (r : Fin 32000 → ℝ) : ∀ n, n < 25 → Inv r (n + 1)
  | 0, _ => inv_one r
  | n + 1, h => inv_succ r (n + 1) h (inv_all r n (by omega))

/-- On a row of reals the reference's maximum is a real `μ` that bounds every entry, and its sum is the real
    `∑ exp (r k - μ)`. -/
theorem ref_real (r : Fin 32000 → ℝ) :
    ∃ μ : ℝ, refM (fun k => (r k : EReal)) = (μ : EReal) ∧ (∀ k, r k ≤ μ) ∧ (∃ k, r k = μ)
      ∧ refS (fun k => (r k : EReal)) = ((∑ k : Fin 32000, Real.exp (r k - μ) : ℝ) : EReal) := by
  obtain ⟨μ, hμ, hle, k0, _, hk0⟩ := fold_max_real (Finset.univ : Finset (Fin 32000)) Finset.univ_nonempty r
  have hM : refM (fun k => (r k : EReal)) = (μ : EReal) := by
    rw [refM, wNegInf_eq, hμ, max_eq_right bot_le]
  refine ⟨μ, hM, fun k => hle k (Finset.mem_univ k), ⟨k0, hk0⟩, ?_⟩
  rw [refS, hM, wZero_eq, zero_add]
  simp only [exp_sub_real]
  rw [← coe_sum]

/-- On a row of reals the kernel's running maximum and running sum after all 25 chunks are the reference's maximum and sum. -/
theorem stream_eq (r : Fin 32000 → ℝ) :
    runM (fun k => (r k : EReal)) 25 = refM (fun k => (r k : EReal))
      ∧ runS (fun k => (r k : EReal)) 25 = refS (fun k => (r k : EReal)) := by
  have h25 : Inv r 25 := inv_all r 24 (by norm_num)
  obtain ⟨μ, hM, hle, ⟨j0, hj0, hj0μ⟩, hS⟩ := h25
  obtain ⟨μ', hM', hle', ⟨k0, hk0⟩, hS'⟩ := ref_real r
  have hμ : μ = μ' := by
    apply le_antisymm
    · have hj : j0 < 32000 := by omega
      calc μ = ext r j0 := hj0μ.symm
        _ = r ⟨j0, hj⟩ := ext_val r ⟨j0, hj⟩
        _ ≤ μ' := hle' _
    · calc μ' = r k0 := hk0.symm
        _ = ext r k0.val := (ext_val r k0).symm
        _ ≤ μ := hle k0.val (by have := k0.isLt; omega)
  subst hμ
  refine ⟨hM.trans hM'.symm, ?_⟩
  rw [hS, hS']
  refine congrArg _ ?_
  exact (Fin.sum_univ_eq_sum_range (fun j => Real.exp (ext r j - μ)) 32000).symm.trans
    (Finset.sum_congr rfl fun k _ => by rw [ext_val])

end Cert.RowSpec

end
-- ==== Proof.RowLaw.lean ====
/-
  The per-row law: on a row of reals the kernel's closed form `2 (1 - p_t) / C` is the reference's mean absolute
  deviation of the soft-max from the label's indicator, and the two log-probabilities of the label agree.
-/
import proofs.«424387_j11055245820044_3_alg».proof.Proof.RowStream
import Mathlib.Algebra.BigOperators.Ring.Finset
import Mathlib.Algebra.Order.BigOperators.Group.Finset
import Mathlib.Analysis.SpecialFunctions.Log.Basic

noncomputable section

open scoped BigOperators

namespace Cert.RowSpec

open Idealize.ShloMosaic

namespace Law

/-! ## The three words the law evaluates -/

/-- The zero word is 0. -/
theorem wZero_eq : wZero = 0 := by simp [Ideal.ofBits, Ideal.ieee]

/-- The word of 1 is 1: significand `2^23` at exponent `-23`. -/
theorem wOne_eq : wOne = 1 := by
  simp [Ideal.ofBits, Ideal.ieee]
  rw [← EReal.coe_mul, ← EReal.coe_one]
  congr 1
  norm_num

/-- The word of 2 is 2: significand `2^23` at exponent `-22`. -/
theorem wTwo_eq : wTwo = 2 := by
  simp [Ideal.ofBits, Ideal.ieee]
  rw [← EReal.coe_mul, show (2 : EReal) = ((2 : ℝ) : EReal) from rfl]
  congr 1
  norm_num

/-! ## Finite sums of reals inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The absolute deviations of a positive vector of total mass one from a point mass at `t` sum to
    `2 (1 - p t)`: the entry at `t` misses by `1 - p t`, the others by themselves, and those others sum to `1 - p t`. -/
theorem abs_dev_sum {ι : Type*} [Fintype ι] [DecidableEq ι] (p : ι → ℝ) (t : ι) (hpos : ∀ k, 0 < p k)
    (hsum : ∑ k, p k = 1) :
    ∑ k, max (p k - (if k = t then (1 : ℝ) else 0)) (-(p k - (if k = t then (1 : ℝ) else 0)))
      = 2 * (1 - p t) := by
  have hle : p t ≤ 1 := by
    rw [← hsum]; exact Finset.single_le_sum (fun k _ => (hpos k).le) (Finset.mem_univ t)
  have key : ∀ k, max (p k - (if k = t then (1 : ℝ) else 0)) (-(p k - (if k = t then (1 : ℝ) else 0)))
      = p k + (if k = t then (1 : ℝ) else 0) - 2 * (if k = t then p k else 0) := by
    intro k
    rw [← abs_eq_max_neg]
    by_cases h : k = t
    · rw [if_pos h, if_pos h, h, abs_of_nonpos (by linarith)]; ring
    · rw [if_neg h, if_neg h, sub_zero, abs_of_pos (hpos k)]; ring
  simp_rw [key]
  rw [Finset.sum_sub_distrib, Finset.sum_add_distrib, ← Finset.mul_sum, Finset.sum_ite_eq',
    Finset.sum_ite_eq', hsum]
  simp only [Finset.mem_univ, if_true]
  ring

end Law

/-! ## The per-row law -/

/-- The per-row law on a row of reals. -/
theorem bridge (r : Fin 32000 → ℝ) (t : Fin 32000) :
    kerD (fun k => (r k : EReal)) t = refD (fun k => (r k : EReal)) t
      ∧ kerLp (fun k => (r k : EReal)) t = refLp (fun k => (r k : EReal)) t := by
  obtain ⟨μ, hM, -, -, hS⟩ := ref_real r
  obtain ⟨hrm, hrs⟩ := stream_eq r
  -- the sum of the shifted exponentials is a positive real
  have hSpos : 0 < ∑ k : Fin 32000, Real.exp (r k - μ) :=
    Finset.sum_pos (fun k _ => Real.exp_pos _) ⟨t, Finset.mem_univ t⟩
  generalize hSdef : (∑ k : Fin 32000, Real.exp (r k - μ)) = S at hS hSpos
  have hlogS : Ideal.log (S : EReal) = (Real.log S : EReal) := by
    rw [Ideal.log_coe, if_neg (not_le.mpr hSpos)]
  -- the two log-probabilities are the same real
  have hkLp : kerLp (fun k => (r k : EReal)) t = ((r t - (μ + Real.log S) : ℝ) : EReal) := by
    rw [kerLp, kLse, hrm, hrs, hM, hS, hlogS, EReal.coe_sub, EReal.coe_add]
  have hrLp : refLp (fun k => (r k : EReal)) t = ((r t - μ - Real.log S : ℝ) : EReal) := by
    rw [refLp, hM, hS, hlogS, EReal.coe_sub, EReal.coe_sub]
  have hLp : kerLp (fun k => (r k : EReal)) t = refLp (fun k => (r k : EReal)) t := by
    rw [hkLp, hrLp]; exact congrArg Real.toEReal (by ring)
  refine ⟨?_, hLp⟩
  -- the soft-max as a vector of reals
  let p : Fin 32000 → ℝ := fun k => Real.exp (r k - μ) / S
  have hppos : ∀ k, 0 < p k := fun k => div_pos (Real.exp_pos _) hSpos
  have hpsum : ∑ k, p k = 1 := by
    show ∑ k, Real.exp (r k - μ) / S = 1
    rw [← Finset.sum_div, hSdef, div_self hSpos.ne']
  have hrefP : ∀ k, refP (fun k => (r k : EReal)) k = (p k : EReal) := by
    intro k
    rw [refP, hM, hS, ← EReal.coe_sub, Ideal.exp_coe, Ideal.div_coe hSpos.ne', ← EReal.coe_mul]
    refine congrArg Real.toEReal ?_
    show Real.exp (r k - μ) * (1 / S) = Real.exp (r k - μ) / S
    ring
  have hhot : ∀ k, hot t k = ((if k = t then (1 : ℝ) else 0 : ℝ) : EReal) := by
    intro k
    rw [hot]
    by_cases h : k = t
    · rw [if_pos h, if_pos h, EReal.coe_one]
    · rw [if_neg h, if_neg h, EReal.coe_zero]
  -- the kernel's exponential of its log-probability is the soft-max at the label
  have hexp : Ideal.exp (kerLp (fun k => (r k : EReal)) t) = (p t : EReal) := by
    rw [hkLp, Ideal.exp_coe]
    refine congrArg Real.toEReal ?_
    show Real.exp (r t - (μ + Real.log S)) = Real.exp (r t - μ) / S
    rw [show r t - (μ + Real.log S) = (r t - μ) - Real.log S by ring, Real.exp_sub, Real.exp_log hSpos]
  have hterm : ∀ k, max (refP (fun k => (r k : EReal)) k - hot t k) (-(refP (fun k => (r k : EReal)) k - hot t k))
      = ((max (p k - (if k = t then (1 : ℝ) else 0)) (-(p k - (if k = t then (1 : ℝ) else 0))) : ℝ) : EReal) := by
    intro k
    rw [hrefP, hhot, ← EReal.coe_sub, ← EReal.coe_neg, ← EReal.coe_strictMono.monotone.map_max]
  rw [kerD, refD, hexp]
  refine congrArg (fun z => Ideal.div z wC) ?_
  rw [Law.wZero_eq, Law.wOne_eq, Law.wTwo_eq, zero_add, Finset.sum_congr rfl (fun k _ => hterm k), ← Law.coe_sum,
    Law.abs_dev_sum p t hppos hpsum, EReal.coe_mul, EReal.coe_sub]
  rfl

/-- So on an array of reals the two whole results agree. -/
theorem kval_eq_rval (x : (⟨2, ![4096, 32000]⟩ : Shape).Idx → EReal) (tg : (⟨1, ![4096]⟩ : Shape).Idx → BitVec 32)
    (hfin : ∀ i, ∃ r : ℝ, x i = (r : EReal)) : kval x tg = rval x tg := by
  choose xr hxr using hfin
  -- every row of the array is a row of reals
  have hrow : ∀ R : Fin 4096, rowOf x R = fun k => ((xr (ValueIdx.ix2 R k) : ℝ) : EReal) := by
    intro R
    funext k
    simp only [rowOf]
    exact hxr _
  -- so the per-row law applies to each row
  have hD : (fun R => kerD (rowOf x R) (tOf (tg (ValueIdx.ix1 R))))
      = (fun R => refD (rowOf x R) (tOf (tg (ValueIdx.ix1 R)))) := by
    funext R
    rw [hrow R]
    exact (bridge _ _).1
  have hL : (fun R => kerLp (rowOf x R) (tOf (tg (ValueIdx.ix1 R))))
      = (fun R => refLp (rowOf x R) (tOf (tg (ValueIdx.ix1 R)))) := by
    funext R
    rw [hrow R]
    exact (bridge _ _).2
  rw [kval, rval, hD, hL]

end Cert.RowSpec

end
-- ==== Proof.PreFacts.lean ====
/-
  What the precondition says of the two argument arrays: every logit is a real number, and every label is a class,
  `0 ≤ label < 32000`.
-/
import proofs.«424387_j11055245820044_3_alg».proof.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

/-- The precondition, decoded. -/
theorem pre_facts [hP : Cert.Pre_finite_inputs.Facts] (x : FVec Ideal S4096x32000 .f32) (tg : IVec S4096 32)
    (h : Cert.Pre_finite_inputs.fn (F := Ideal) x tg = fun _ => 1#1) :
    (∀ i : S4096x32000.Idx, ∃ r : ℝ, x i = (r : EReal))
      ∧ (∀ R : Fin 4096, 0 ≤ (tg (ix1 R)).toInt ∧ (tg (ix1 R)).toInt < 32000) := by
  -- the result array has one index
  haveI : Subsingleton S_.Idx := ⟨fun a b => funext fun d => d.elim0⟩
  have h0 := congrFun h ValueIdx.ix0
  dsimp only [Cert.Pre_finite_inputs.fn] at h0
  -- the final conjunction: both reductions are 1
  obtain ⟨hA, hB⟩ := IntOp.andi_eq_one.1 h0
  refine ⟨fun i => ?_, fun R => ?_⟩
  · -- every |x i| < +∞, so x i is neither infinity
    have e := Host.reduce_andi_all _ _ _ _ _ hA i
    have e' : Ideal.cmp .olt (max (x i) (-(x i))) (Ideal.ofBits .f32 0x7F800000#32) = 1#1 := e
    have htop : Ideal.ofBits .f32 0x7F800000#32 = ⊤ := by simp [Ideal.ofBits, Ideal.ieee]
    rw [htop] at e'
    have hlt : max (x i) (-(x i)) < ⊤ := by
      by_contra hc
      simp [Ideal.cmp, hc] at e'
    have hne := lt_top_iff_ne_top.1 hlt
    have h1 : x i ≠ ⊤ := fun ht => hne (by rw [ht]; simp)
    have h2 : x i ≠ ⊥ := fun hb => hne (by rw [hb]; simp)
    exact ⟨(x i).toReal, (EReal.coe_toReal h1 h2).symm⟩
  · -- every label passes both signed comparisons, 0 ≤ label and label < 32000
    have e := Host.reduce_andi_all _ _ _ _ _ hB (ix1 R)
    obtain ⟨e1, e2⟩ := IntOp.andi_eq_one.1 e
    have e1' : IntOp.cmpi .sge (tg (ix1 R)) 0#32 = 1#1 := e1
    have e2' : IntOp.cmpi .slt (tg (ix1 R)) 32000#32 = 1#1 := e2
    rw [IntOp.cmpi_sge, show (0#32 : BitVec 32).toInt = 0 from by decide] at e1'
    rw [IntOp.cmpi_slt, show (32000#32 : BitVec 32).toInt = 32000 from by decide] at e2'
    exact ⟨e1', e2'⟩

end Cert.PreFacts

end
-- ==== Proof.KPieces.lean ====
/-
  What one run of the kernel body leaves in its two carried scratch buffers and, at the last column tile, in the
  output block: the body's stores read back as values.  Each of the five chunks loads a 1280-column slice of the
  512 × 6400 input block, reads the running maximum and sum the chunk before left, and stores the updated pair; so
  after the body the two buffers hold the five-fold composition `m5`, `s5` of the chunk payloads, started from what the
  buffers held on entry (or, at a row tile's first column tile, from the reset values).
-/
import proofs.«424387_j11055245820044_3_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.ValueIdx Idealize.SL.Sem
open Cert.KernelIdeal Cert.KernelIdeal.Gen

variable {F : FTy → Type} [FloatOps F]

/-- Column chunk `c` of the input block: the body's load of columns `1280 c` to `1280 c + 1279`. -/
def colChunk (x0 : Vec F S512x6400 .f32) (c : Fin 5) : Vec F S512x1280 .f32 :=
  View.ld x0 (Rect.unit (s := S512x6400) (k0_off1 (BitVec.ofNat 32 c.val)) S512x1280.size (k0_off1_inb c))

/-- Every chunk starts at row 0 of the block, -/
theorem k0_off1_zero (c : Fin 5) : k0_off1 (BitVec.ofNat 32 c.val) 0 = 0 := rfl

/-- and at column `1280 c`: the 32-bit product does not wrap for `c < 5`. -/
theorem k0_off1_one (c : Fin 5) : k0_off1 (BitVec.ofNat 32 c.val) 1 = 1280 * c.val := by
  fin_cases c <;> rfl

/-- The chunk at an index is the block at the same row, `1280 c` columns further. -/
theorem colChunk_apply (x0 : Vec F S512x6400 .f32) (c : Fin 5) (r : Fin 512) (l : Fin 1280) :
    colChunk x0 c (ix2 r l) = x0 (ix2 r ⟨1280 * c.val + l.val, by have := c.isLt; have := l.isLt; omega⟩) := by
  unfold colChunk
  -- a load through a rectangle reads the block at the rectangle's coordinates: offset plus (unit) stride times the
  -- coordinate inside, axis by axis
  show x0 ((Rect.unit (s := S512x6400) (k0_off1 (BitVec.ofNat 32 c.val)) S512x1280.size (k0_off1_inb c)).idx (ix2 r l)) = _
  refine congrArg x0 (funext fun a => Fin.ext ?_)
  match a with
  | ⟨0, _⟩ =>
    show k0_off1 (BitVec.ofNat 32 c.val) 0 + 1 * r.val = r.val
    rw [k0_off1_zero, Nat.zero_add, Nat.one_mul]
  | ⟨1, _⟩ =>
    show k0_off1 (BitVec.ofNat 32 c.val) 1 + 1 * l.val = 1280 * c.val + l.val
    rw [k0_off1_one, Nat.one_mul]

/-! The running maximum and sum after each chunk, as compositions of the chunk payloads. -/

def m1 (x0 : Vec F S512x6400 .f32) (xs0 : Vec F S512x1 .f32) : Vec F S512x1 .f32 := k0_pay8 (colChunk x0 0) xs0
def s1 (x0 : Vec F S512x6400 .f32) (xs0 xs1 : Vec F S512x1 .f32) : Vec F S512x1 .f32 := k0_pay7 (colChunk x0 0) xs0 xs1
def m2 (x0 : Vec F S512x6400 .f32) (xs0 : Vec F S512x1 .f32) : Vec F S512x1 .f32 := k0_pay12 (k0_pay9 (colChunk x0 1)) (m1 x0 xs0)
def s2 (x0 : Vec F S512x6400 .f32) (xs0 xs1 : Vec F S512x1 .f32) : Vec F S512x1 .f32 :=
  k0_pay11 (colChunk x0 1) (k0_pay9 (colChunk x0 1)) (m1 x0 xs0) (s1 x0 xs0 xs1)
def m3 (x0 : Vec F S512x6400 .f32) (xs0 : Vec F S512x1 .f32) : Vec F S512x1 .f32 := k0_pay15 (k0_pay13 (colChunk x0 2) (m2 x0 xs0))
def s3 (x0 : Vec F S512x6400 .f32) (xs0 xs1 : Vec F S512x1 .f32) : Vec F S512x1 .f32 :=
  k0_pay14 (colChunk x0 2) (m2 x0 xs0) (s2 x0 xs0 xs1)
def m4 (x0 : Vec F S512x6400 .f32) (xs0 : Vec F S512x1 .f32) : Vec F S512x1 .f32 := k0_pay18 (colChunk x0 3) (m3 x0 xs0)
def s4 (x0 : Vec F S512x6400 .f32) (xs0 xs1 : Vec F S512x1 .f32) : Vec F S512x1 .f32 :=
  k0_pay17 (colChunk x0 3) (m3 x0 xs0) (s3 x0 xs0 xs1)
def m5 (x0 : Vec F S512x6400 .f32) (xs0 : Vec F S512x1 .f32) : Vec F S512x1 .f32 := k0_pay2 (k0_pay19 (colChunk x0 4) (m4 x0 xs0))
def s5 (x0 : Vec F S512x6400 .f32) (xs0 xs1 : Vec F S512x1 .f32) : Vec F S512x1 .f32 :=
  k0_pay1 (colChunk x0 4) (m4 x0 xs0) (k0_pay19 (colChunk x0 4) (m4 x0 xs0)) (s4 x0 xs0 xs1)

/-! A middle column tile (neither the first nor the last of its row tile). -/

theorem sout_B_0 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x0 : Vec F S512x6400 .f32) (xs0 xs1 : Vec F S512x1 .f32) :
    sout0_B_0 c i a2 h2 a3 h3 a4 h4 a5 h5 hc0 hc1 x0 xs0 xs1 = m5 x0 xs0 := by
  have hz : (![0, 0] : Fin 2 → Nat) = fun _ => 0 := funext fun a => by fin_cases a <;> rfl
  unfold sout0_B_0
  rw [View.read_writes_eq_canon _ _ _ (scover0_B_0 c i a2 h2 a3 h3 a4 h4 a5 h5 hc0 hc1 x0 xs0 xs1)]
  unfold kernelRun0_B
  dsimp only
  rw [View.canon_cons_unit_zero (S := S512x1) hz]
  sl_unfold_words
  simp only [View.readAt_eq_ld, h2.read_unread, h4.read_unread, h5.read_unread, View.ld_unit_zero (S := S512x1) hz,
    View.readCov_unit_zero (S := S512x1) _ hz, View.readCov_cons_toLoadRect]
  rfl

theorem sout_B_1 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x0 : Vec F S512x6400 .f32) (xs0 xs1 : Vec F S512x1 .f32) :
    sout0_B_1 c i a2 h2 a3 h3 a4 h4 a5 h5 hc0 hc1 x0 xs0 xs1 = s5 x0 xs0 xs1 := by
  have hz : (![0, 0] : Fin 2 → Nat) = fun _ => 0 := funext fun a => by fin_cases a <;> rfl
  unfold sout0_B_1
  rw [View.read_writes_eq_canon _ _ _ (scover0_B_1 c i a2 h2 a3 h3 a4 h4 a5 h5 hc0 hc1 x0 xs0 xs1)]
  unfold kernelRun0_B
  dsimp only
  rw [View.canon_cons_unit_zero (S := S512x1) hz]
  sl_unfold_words
  simp only [View.readAt_eq_ld, h2.read_unread, h4.read_unread, h5.read_unread, View.ld_unit_zero (S := S512x1) hz,
    View.readCov_unit_zero (S := S512x1) _ hz, View.readCov_cons_toLoadRect]
  rfl

/-! The last column tile: the same pair, and the output block at maximum plus logarithm of the sum. -/

theorem sout_C_0 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 : Vec F S512x6400 .f32) (xs0 xs1 : Vec F S512x1 .f32) :
    sout0_C_0 c i a2 h2 a3 h3 a4 h4 a5 h5 hc0 hc1 x0 xs0 xs1 = m5 x0 xs0 := by
  have hz : (![0, 0] : Fin 2 → Nat) = fun _ => 0 := funext fun a => by fin_cases a <;> rfl
  unfold sout0_C_0
  rw [View.read_writes_eq_canon _ _ _ (scover0_C_0 c i a2 h2 a3 h3 a4 h4 a5 h5 hc0 hc1 x0 xs0 xs1)]
  unfold kernelRun0_C
  dsimp only
  sl_unfold_words
  rw [View.canon_cons_unit_zero (S := S512x1) hz]
  simp only [View.readAt_eq_ld, h2.read_unread, h4.read_unread, h5.read_unread, View.ld_unit_zero (S := S512x1) hz,
    View.readCov_unit_zero (S := S512x1) _ hz, View.readCov_cons_toLoadRect]
  rfl

theorem sout_C_1 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 : Vec F S512x6400 .f32) (xs0 xs1 : Vec F S512x1 .f32) :
    sout0_C_1 c i a2 h2 a3 h3 a4 h4 a5 h5 hc0 hc1 x0 xs0 xs1 = s5 x0 xs0 xs1 := by
  have hz : (![0, 0] : Fin 2 → Nat) = fun _ => 0 := funext fun a => by fin_cases a <;> rfl
  unfold sout0_C_1
  rw [View.read_writes_eq_canon _ _ _ (scover0_C_1 c i a2 h2 a3 h3 a4 h4 a5 h5 hc0 hc1 x0 xs0 xs1)]
  unfold kernelRun0_C
  dsimp only
  sl_unfold_words
  rw [View.canon_cons_unit_zero (S := S512x1) hz]
  simp only [View.readAt_eq_ld, h2.read_unread, h4.read_unread, h5.read_unread, View.ld_unit_zero (S := S512x1) hz,
    View.readCov_unit_zero (S := S512x1) _ hz, View.readCov_cons_toLoadRect]
  rfl

theorem out_C_1 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 : Vec F S512x6400 .f32) (xs0 xs1 : Vec F S512x1 .f32) :
    out0_C_1 c i a2 h2 a3 h3 a4 h4 a5 h5 hc0 hc1 x0 xs0 xs1 = k0_pay3 (m5 x0 xs0) (s5 x0 xs0 xs1) := by
  have hz : (![0, 0] : Fin 2 → Nat) = fun _ => 0 := funext fun a => by fin_cases a <;> rfl
  unfold out0_C_1
  rw [View.read_writes_eq_canon _ _ _ (cover0_C_1 c i a2 h2 a3 h3 a4 h4 a5 h5 hc0 hc1 x0 xs0 xs1)]
  unfold kernelRun0_C
  dsimp only
  rw [View.canon_unit_zero (S := S512x1) hz]
  sl_unfold_words
  simp only [View.readAt_eq_ld, h2.read_unread, h4.read_unread, h5.read_unread, View.ld_unit_zero (S := S512x1) hz,
    View.readCov_unit_zero (S := S512x1) _ hz, View.readCov_cons_toLoadRect]
  rfl

/-! The first column tile of a row tile: the pair restarts from the reset values. -/

theorem sout_A_0 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x0 : Vec F S512x6400 .f32) :
    sout0_A_0 c i a2 h2 a3 h3 a4 h4 a5 h5 hc0 hc1 x0 = m5 x0 (k0_pay4 (F := F)) := by
  have hz : (![0, 0] : Fin 2 → Nat) = fun _ => 0 := funext fun a => by fin_cases a <;> rfl
  unfold sout0_A_0
  rw [View.read_writes_eq_canon _ _ _ (scover0_A_0 c i a2 h2 a3 h3 a4 h4 a5 h5 hc0 hc1 x0)]
  unfold kernelRun0_A
  dsimp only
  rw [View.canon_cons_unit_zero (S := S512x1) hz]
  sl_unfold_words
  simp only [View.readAt_eq_ld, h2.read_unread, h4.read_unread, h5.read_unread, View.ld_unit_zero (S := S512x1) hz,
    View.readCov_unit_zero (S := S512x1) _ hz, View.readCov_cons_toLoadRect]
  rfl

theorem sout_A_1 (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x0 : Vec F S512x6400 .f32) :
    sout0_A_1 c i a2 h2 a3 h3 a4 h4 a5 h5 hc0 hc1 x0 = s5 x0 (k0_pay4 (F := F)) (k0_pay5 (F := F)) := by
  have hz : (![0, 0] : Fin 2 → Nat) = fun _ => 0 := funext fun a => by fin_cases a <;> rfl
  unfold sout0_A_1
  rw [View.read_writes_eq_canon _ _ _ (scover0_A_1 c i a2 h2 a3 h3 a4 h4 a5 h5 hc0 hc1 x0)]
  unfold kernelRun0_A
  dsimp only
  rw [View.canon_cons_unit_zero (S := S512x1) hz]
  sl_unfold_words
  simp only [View.readAt_eq_ld, h2.read_unread, h4.read_unread, h5.read_unread, View.ld_unit_zero (S := S512x1) hz,
    View.readCov_unit_zero (S := S512x1) _ hz, View.readCov_cons_toLoadRect]
  rfl

end Cert.KernelIdeal.Pieces

end
-- ==== Proof.BlockSpec.lean ====
/-
  One grid point's share of the streaming pass: a 6400-column stretch of a row, walked in five chunks of 1280 columns
  from the running maximum and sum the point before left.
-/
import proofs.«424387_j11055245820044_3_alg».proof.Proof.RowSpec

noncomputable section

open scoped BigOperators

namespace Cert.RowSpec

open Idealize.ShloMosaic

/-- Chunk `c` of a 6400-column stretch: its columns `1280 c` to `1280 c + 1279` (zero past the stretch's end, which no chunk below 5 meets). -/
def sub (brow : Fin 6400 → EReal) (c : ℕ) (l : Fin 1280) : EReal :=
  if h : 1280 * c + l.val < 6400 then brow ⟨1280 * c + l.val, h⟩ else 0

/-- The running maximum after `c` chunks of the stretch, from the maximum `mo` before it. -/
def blkM (brow : Fin 6400 → EReal) (mo : EReal) : ℕ → EReal
  | 0 => mo
  | c + 1 => updM (sub brow c) (blkM brow mo c)

/-- The running sum after `c` chunks of the stretch, from the maximum `mo` and the sum `so` before it. -/
def blkS (brow : Fin 6400 → EReal) (mo so : EReal) : ℕ → EReal
  | 0 => so
  | c + 1 => updS (sub brow c) (blkM brow mo c) (blkS brow mo so c)

end Cert.RowSpec

end
-- ==== Proof.KChunk.lean ====
/-
  The kernel body's arithmetic, one chunk at a time, read at a row of the 512-row block over the extended reals:
  each chunk's new running maximum is the old one against the chunk's row maximum, and its new running sum is the old
  sum rescaled to the new maximum plus the row's sum of `exp (x - new maximum)`.
-/
import proofs.«424387_j11055245820044_3_alg».proof.Proof.Gen.KernelIdeal.Skeleton
import proofs.«424387_j11055245820044_3_alg».proof.Proof.BlockSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Chunk

open Idealize.ShloMosaic Idealize.ShloMosaic.ValueIdx Cert.KernelIdeal Cert.KernelIdeal.Gen Cert.RowSpec

/-- Row `r` of a 512 × 1280 chunk. -/
abbrev rowCh (x : Vec Ideal S512x1280 .f32) (r : Fin 512) : Fin 1280 → EReal := fun l => x (ix2 r l)

/-! ## Layout operations of the body read at a row -/

section Layout
variable {α : Type}

/-- An `[a]` array cast to the column `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index of a `[a, b]` array over row `r` with column `k` inserted is `(r, k)`. -/
theorem lift_row {a b : ℕ} (h : (⟨2, ![a, b]⟩ : Shape).Reduces [(1 : Fin 2)] ⟨1, ![a]⟩) (r : Fin a) (k : Fin b) :
    h.lift (ix1 r) k = ix2 r k := by
  funext c
  match c with
  | ⟨0, _⟩ => exact Fin.ext rfl
  | ⟨1, _⟩ => exact Fin.ext rfl

/-- The sum along the columns, read at row `r`: the sum of the row. -/
theorem rowSum_apply (v : FVec Ideal S512x1280 .f32) (h : S512x1280.Reduces [(1 : Fin 2)] S512) (hφ : FKind.Formats .f32)
    (hacc : (0x00000000#32 : BitVec (FTy.bits .f32)) = FKind.add.neutral .f32 hφ) (r : Fin 512) :
    multiReduction (F := Ideal) .add [1] S512 v 0x00000000#32 h hφ hacc (ix1 r) = ∑ l : Fin 1280, v (ix2 r l) := by
  refine (Ideal.multiReduction_add_single v _ h hφ hacc (ix1 r)).trans ?_
  show ∑ k : Fin 1280, v (h.lift (ix1 r) k) = _
  exact Finset.sum_congr rfl fun k _ => congrArg v (lift_row h r k)

/-- The maximum along the columns, read at row `r`: the fold of `max` over the row from the accumulator's word. -/
theorem rowMax_apply (v : FVec Ideal S512x1280 .f32) (h : S512x1280.Reduces [(1 : Fin 2)] S512) (hφ : FKind.Formats .f32)
    (hacc : (0xFF800000#32 : BitVec (FTy.bits .f32)) = FKind.maximumf.neutral .f32 hφ) (r : Fin 512) :
    multiReduction (F := Ideal) .maximumf [1] S512 v 0xFF800000#32 h hφ hacc (ix1 r)
      = (Finset.univ : Finset (Fin 1280)).fold max wNegInf (fun l => v (ix2 r l)) := by
  refine (Ideal.multiReduction_maximumf_single v _ h hφ hacc (ix1 r)).trans ?_
  show (Finset.univ : Finset (Fin 1280)).fold max wNegInf (v ∘ h.lift (ix1 r)) = _
  exact congrArg (fun f => (Finset.univ : Finset (Fin 1280)).fold max wNegInf f) (funext fun k => congrArg v (lift_row h r k))

/-! ## The chunk's two updates at a row -/

/-- The new maximum: the old one against the row's maximum, whatever names the body gives the values. -/
theorem newMax_apply (x : FVec Ideal S512x1280 .f32) (mo : FVec Ideal S512x1 .f32)
    (h : S512x1280.Reduces [(1 : Fin 2)] S512) (hφ : FKind.Formats .f32)
    (hacc : (0xFF800000#32 : BitVec (FTy.bits .f32)) = FKind.maximumf.neutral .f32 hφ)
    (hc : S512.ShapeCasts S512x1) (r : Fin 512) :
    maximumf mo (shapeCast S512x1 (multiReduction (F := Ideal) .maximumf [1] S512 x 0xFF800000#32 h hφ hacc) hc) (ix2 r 0)
      = updM (rowCh x r) (mo (ix2 r 0)) := by
  refine (maximumf_apply _ _ _).trans ?_
  unfold updM
  exact congrArg (max (mo (ix2 r 0))) ((shapeCast_a_a1_apply _ hc r 0).trans (rowMax_apply x h hφ hacc r))

/-- The new sum from a new maximum `mn` known at the row: the old sum rescaled plus the row's shifted exponentials. -/
theorem newSum_apply (x : FVec Ideal S512x1280 .f32) (mo so mn : FVec Ideal S512x1 .f32)
    (h : S512x1280.Reduces [(1 : Fin 2)] S512) (hφ : FKind.Formats .f32)
    (hacc : (0x00000000#32 : BitVec (FTy.bits .f32)) = FKind.add.neutral .f32 hφ)
    (hc : S512.ShapeCasts S512x1) (hb : S512x1.Broadcasts S512x1280) (r : Fin 512)
    (hmn : mn (ix2 r 0) = updM (rowCh x r) (mo (ix2 r 0))) :
    addf (mulf so (exp (subf mo mn)))
        (shapeCast S512x1 (multiReduction (F := Ideal) .add [1] S512 (exp (subf x (broadcastTo S512x1280 mn hb))) 0x00000000#32 h hφ hacc) hc)
        (ix2 r 0)
      = updS (rowCh x r) (mo (ix2 r 0)) (so (ix2 r 0)) := by
  refine (addf_apply _ _ _).trans ?_
  unfold updS
  rw [← hmn]
  refine congrArg₂ (· + ·) rfl ?_
  refine (shapeCast_a_a1_apply _ hc r 0).trans ?_
  refine (rowSum_apply _ h hφ hacc r).trans ?_
  refine Finset.sum_congr rfl fun k _ => ?_
  show Ideal.exp (x (ix2 r k) - broadcastTo S512x1280 mn hb (ix2 r k)) = _
  rw [broadcastTo_a1_ab_apply mn hb r k]

/-! ## The five chunks of a grid point, the closing store and the two resets -/

theorem pay6_apply (x : Vec Ideal S512x1280 .f32) (mo : Vec Ideal S512x1 .f32) (r : Fin 512) :
    k0_pay6 (F := Ideal) x mo (ix2 r 0) = updM (rowCh x r) (mo (ix2 r 0)) := by
  unfold k0_pay6
  exact newMax_apply x mo _ _ _ _ r

theorem pay8_apply (x : Vec Ideal S512x1280 .f32) (mo : Vec Ideal S512x1 .f32) (r : Fin 512) :
    k0_pay8 (F := Ideal) x mo (ix2 r 0) = updM (rowCh x r) (mo (ix2 r 0)) := by
  unfold k0_pay8
  exact (congrFun (shapeCast_self _ _) _).trans (pay6_apply x mo r)

theorem pay7_apply (x : Vec Ideal S512x1280 .f32) (mo so : Vec Ideal S512x1 .f32) (r : Fin 512) :
    k0_pay7 (F := Ideal) x mo so (ix2 r 0) = updS (rowCh x r) (mo (ix2 r 0)) (so (ix2 r 0)) := by
  unfold k0_pay7
  refine (congrFun (shapeCast_self _ _) _).trans ?_
  exact newSum_apply x mo so (k0_pay6 x mo) _ _ _ _ _ r (pay6_apply x mo r)

theorem pay10_apply (x : Vec Ideal S512x1280 .f32) (mo : Vec Ideal S512x1 .f32) (r : Fin 512) :
    k0_pay10 (F := Ideal) (k0_pay9 x) mo (ix2 r 0) = updM (rowCh x r) (mo (ix2 r 0)) := by
  unfold k0_pay10 k0_pay9
  exact newMax_apply x mo _ _ _ _ r

theorem pay12_apply (x : Vec Ideal S512x1280 .f32) (mo : Vec Ideal S512x1 .f32) (r : Fin 512) :
    k0_pay12 (F := Ideal) (k0_pay9 x) mo (ix2 r 0) = updM (rowCh x r) (mo (ix2 r 0)) := by
  unfold k0_pay12
  exact (congrFun (shapeCast_self _ _) _).trans (pay10_apply x mo r)

theorem pay11_apply (x : Vec Ideal S512x1280 .f32) (mo so : Vec Ideal S512x1 .f32) (r : Fin 512) :
    k0_pay11 (F := Ideal) x (k0_pay9 x) mo so (ix2 r 0) = updS (rowCh x r) (mo (ix2 r 0)) (so (ix2 r 0)) := by
  unfold k0_pay11
  refine (congrFun (shapeCast_self _ _) _).trans ?_
  exact newSum_apply x mo so (k0_pay10 (k0_pay9 x) mo) _ _ _ _ _ r (pay10_apply x mo r)

theorem pay13_apply (x : Vec Ideal S512x1280 .f32) (mo : Vec Ideal S512x1 .f32) (r : Fin 512) :
    k0_pay13 (F := Ideal) x mo (ix2 r 0) = updM (rowCh x r) (mo (ix2 r 0)) := by
  unfold k0_pay13
  exact newMax_apply x mo _ _ _ _ r

theorem pay15_apply (x : Vec Ideal S512x1280 .f32) (mo : Vec Ideal S512x1 .f32) (r : Fin 512) :
    k0_pay15 (F := Ideal) (k0_pay13 x mo) (ix2 r 0) = updM (rowCh x r) (mo (ix2 r 0)) := by
  unfold k0_pay15
  exact (congrFun (shapeCast_self _ _) _).trans (pay13_apply x mo r)

theorem pay14_apply (x : Vec Ideal S512x1280 .f32) (mo so : Vec Ideal S512x1 .f32) (r : Fin 512) :
    k0_pay14 (F := Ideal) x mo so (ix2 r 0) = updS (rowCh x r) (mo (ix2 r 0)) (so (ix2 r 0)) := by
  unfold k0_pay14
  refine (congrFun (shapeCast_self _ _) _).trans ?_
  exact newSum_apply x mo so (k0_pay13 x mo) _ _ _ _ _ r (pay13_apply x mo r)

theorem pay16_apply (x : Vec Ideal S512x1280 .f32) (mo : Vec Ideal S512x1 .f32) (r : Fin 512) :
    k0_pay16 (F := Ideal) x mo (ix2 r 0) = updM (rowCh x r) (mo (ix2 r 0)) := by
  unfold k0_pay16
  exact newMax_apply x mo _ _ _ _ r

theorem pay18_apply (x : Vec Ideal S512x1280 .f32) (mo : Vec Ideal S512x1 .f32) (r : Fin 512) :
    k0_pay18 (F := Ideal) x mo (ix2 r 0) = updM (rowCh x r) (mo (ix2 r 0)) := by
  unfold k0_pay18
  exact (congrFun (shapeCast_self _ _) _).trans (pay16_apply x mo r)

theorem pay17_apply (x : Vec Ideal S512x1280 .f32) (mo so : Vec Ideal S512x1 .f32) (r : Fin 512) :
    k0_pay17 (F := Ideal) x mo so (ix2 r 0) = updS (rowCh x r) (mo (ix2 r 0)) (so (ix2 r 0)) := by
  unfold k0_pay17
  refine (congrFun (shapeCast_self _ _) _).trans ?_
  exact newSum_apply x mo so (k0_pay16 x mo) _ _ _ _ _ r (pay16_apply x mo r)

theorem pay19_apply (x : Vec Ideal S512x1280 .f32) (mo : Vec Ideal S512x1 .f32) (r : Fin 512) :
    k0_pay19 (F := Ideal) x mo (ix2 r 0) = updM (rowCh x r) (mo (ix2 r 0)) := by
  unfold k0_pay19
  exact newMax_apply x mo _ _ _ _ r

theorem pay2_apply (x : Vec Ideal S512x1280 .f32) (mo : Vec Ideal S512x1 .f32) (r : Fin 512) :
    k0_pay2 (F := Ideal) (k0_pay19 x mo) (ix2 r 0) = updM (rowCh x r) (mo (ix2 r 0)) := by
  unfold k0_pay2
  exact (congrFun (shapeCast_self _ _) _).trans (pay19_apply x mo r)

theorem pay1_apply (x : Vec Ideal S512x1280 .f32) (mo so : Vec Ideal S512x1 .f32) (r : Fin 512) :
    k0_pay1 (F := Ideal) x mo (k0_pay19 x mo) so (ix2 r 0) = updS (rowCh x r) (mo (ix2 r 0)) (so (ix2 r 0)) := by
  unfold k0_pay1
  refine (congrFun (shapeCast_self _ _) _).trans ?_
  exact newSum_apply x mo so (k0_pay19 x mo) _ _ _ _ _ r (pay19_apply x mo r)

/-- The closing store: running maximum plus the logarithm of the running sum. -/
theorem pay3_apply (a b : Vec Ideal S512x1 .f32) (r : Fin 512) :
    k0_pay3 (F := Ideal) a b (ix2 r 0) = a (ix2 r 0) + Ideal.log (b (ix2 r 0)) := by
  unfold k0_pay3
  rfl

/-- The reset of the running maximum: -∞ in every row. -/
theorem pay4_apply (r : Fin 512) : (k0_pay4 (F := Ideal)) (ix2 r 0) = wNegInf := by
  unfold k0_pay4
  refine (congrFun (shapeCast_self _ _) _).trans ?_
  rfl

/-- The reset of the running sum: 0 in every row. -/
theorem pay5_apply (r : Fin 512) : (k0_pay5 (F := Ideal)) (ix2 r 0) = wZero := by
  unfold k0_pay5
  refine (congrFun (shapeCast_self _ _) _).trans ?_
  rfl

end Cert.KernelIdeal.Chunk

end
-- ==== Proof.KInvariant.lean ====
/-
  The region's result array: every row's log-sum-exp.
  After the grid point at row tile `i` and column tile `k` the two carried scratch buffers hold, in row `r`, the running
  maximum and sum of row `512 i + r` of the logits over its first `6400 (k + 1)` columns (`runM`, `runS` after
  `5 (k + 1)` chunks): by induction on the point, the first column tile restarting from the reset values.  At the last
  column tile the output block is stored at maximum plus logarithm of the sum and written back; the eight blocks tile
  the 4096 × 1 array.
-/
import proofs.«424387_j11055245820044_3_alg».proof.Proof.KPieces
import proofs.«424387_j11055245820044_3_alg».proof.Proof.KChunk
import Idealize.ShloMosaic.Lib.Pipeline.Value

set_option maxRecDepth 16384

noncomputable section

namespace Cert.KernelIdeal.Invariant

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pieces Cert.KernelIdeal.Chunk Cert.RowSpec

variable (m : (ℓ : Loc nD τ sig) → Buf (Elt Ideal) ℓ)

/-- A row of a column chunk of the block is the chunk of that row of the block. -/
theorem rowCh_colChunk (x0 : Vec Ideal S512x6400 .f32) (c : Fin 5) (r : Fin 512) :
    rowCh (colChunk x0 c) r = sub (fun q : Fin 6400 => x0 (ix2 r q)) c.val := by
  funext l
  have hc := c.isLt
  have hl := l.isLt
  show colChunk x0 c (ix2 r l) = sub (fun q : Fin 6400 => x0 (ix2 r q)) c.val l
  rw [colChunk_apply]
  unfold sub
  rw [dif_pos (show 1280 * c.val + l.val < 6400 by omega)]

/-! The running pair after each of the five chunks, at a row. -/

theorem m1_apply (x0 : Vec Ideal S512x6400 .f32) (xs0 : Vec Ideal S512x1 .f32) (r : Fin 512) :
    m1 x0 xs0 (ix2 r 0) = blkM (fun q : Fin 6400 => x0 (ix2 r q)) (xs0 (ix2 r 0)) 1 := by
  unfold m1
  rw [pay8_apply, rowCh_colChunk]
  rfl

theorem s1_apply (x0 : Vec Ideal S512x6400 .f32) (xs0 xs1 : Vec Ideal S512x1 .f32) (r : Fin 512) :
    s1 x0 xs0 xs1 (ix2 r 0) = blkS (fun q : Fin 6400 => x0 (ix2 r q)) (xs0 (ix2 r 0)) (xs1 (ix2 r 0)) 1 := by
  unfold s1
  rw [pay7_apply, rowCh_colChunk]
  rfl

theorem m2_apply (x0 : Vec Ideal S512x6400 .f32) (xs0 : Vec Ideal S512x1 .f32) (r : Fin 512) :
    m2 x0 xs0 (ix2 r 0) = blkM (fun q : Fin 6400 => x0 (ix2 r q)) (xs0 (ix2 r 0)) 2 := by
  unfold m2
  rw [pay12_apply, rowCh_colChunk, m1_apply]
  rfl

theorem s2_apply (x0 : Vec Ideal S512x6400 .f32) (xs0 xs1 : Vec Ideal S512x1 .f32) (r : Fin 512) :
    s2 x0 xs0 xs1 (ix2 r 0) = blkS (fun q : Fin 6400 => x0 (ix2 r q)) (xs0 (ix2 r 0)) (xs1 (ix2 r 0)) 2 := by
  unfold s2
  rw [pay11_apply, rowCh_colChunk, m1_apply, s1_apply]
  rfl

theorem m3_apply (x0 : Vec Ideal S512x6400 .f32) (xs0 : Vec Ideal S512x1 .f32) (r : Fin 512) :
    m3 x0 xs0 (ix2 r 0) = blkM (fun q : Fin 6400 => x0 (ix2 r q)) (xs0 (ix2 r 0)) 3 := by
  unfold m3
  rw [pay15_apply, rowCh_colChunk, m2_apply]
  rfl

theorem s3_apply (x0 : Vec Ideal S512x6400 .f32) (xs0 xs1 : Vec Ideal S512x1 .f32) (r : Fin 512) :
    s3 x0 xs0 xs1 (ix2 r 0) = blkS (fun q : Fin 6400 => x0 (ix2 r q)) (xs0 (ix2 r 0)) (xs1 (ix2 r 0)) 3 := by
  unfold s3
  rw [pay14_apply, rowCh_colChunk, m2_apply, s2_apply]
  rfl

theorem m4_apply (x0 : Vec Ideal S512x6400 .f32) (xs0 : Vec Ideal S512x1 .f32) (r : Fin 512) :
    m4 x0 xs0 (ix2 r 0) = blkM (fun q : Fin 6400 => x0 (ix2 r q)) (xs0 (ix2 r 0)) 4 := by
  unfold m4
  rw [pay18_apply, rowCh_colChunk, m3_apply]
  rfl

theorem s4_apply (x0 : Vec Ideal S512x6400 .f32) (xs0 xs1 : Vec Ideal S512x1 .f32) (r : Fin 512) :
    s4 x0 xs0 xs1 (ix2 r 0) = blkS (fun q : Fin 6400 => x0 (ix2 r q)) (xs0 (ix2 r 0)) (xs1 (ix2 r 0)) 4 := by
  unfold s4
  rw [pay17_apply, rowCh_colChunk, m3_apply, s3_apply]
  rfl

/-- One run of the body, at a row of the block: five chunk steps from the entry pair. -/
theorem m5_apply (x0 : Vec Ideal S512x6400 .f32) (xs0 : Vec Ideal S512x1 .f32) (r : Fin 512) :
    m5 x0 xs0 (ix2 r 0) = blkM (fun q : Fin 6400 => x0 (ix2 r q)) (xs0 (ix2 r 0)) 5 := by
  unfold m5
  rw [pay2_apply, rowCh_colChunk, m4_apply]
  rfl

theorem s5_apply (x0 : Vec Ideal S512x6400 .f32) (xs0 xs1 : Vec Ideal S512x1 .f32) (r : Fin 512) :
    s5 x0 xs0 xs1 (ix2 r 0) = blkS (fun q : Fin 6400 => x0 (ix2 r q)) (xs0 (ix2 r 0)) (xs1 (ix2 r 0)) 5 := by
  unfold s5
  rw [pay1_apply, rowCh_colChunk, m4_apply, s4_apply]
  rfl

/-! A row's 25 chunks, five at a time: the stretch of 6400 columns a grid point walks. -/

/-- Columns `6400 k` to `6400 k + 6399` of a row. -/
abbrev stretch (row : Fin 32000 → EReal) (k : ℕ) (hk : k < 5) : Fin 6400 → EReal :=
  fun q => row ⟨6400 * k + q.val, by have := q.isLt; omega⟩

/-- Chunk `5 k + c` of the row is chunk `c` of its stretch `k`. -/
theorem chunk_stretch (row : Fin 32000 → EReal) (k : ℕ) (hk : k < 5) (c : ℕ) (hc : c < 5) :
    chunk row (5 * k + c) = sub (stretch row k hk) c := by
  funext l
  have hl := l.isLt
  unfold chunk sub
  rw [dif_pos (show 1280 * (5 * k + c) + l.val < 32000 by omega), dif_pos (show 1280 * c + l.val < 6400 by omega)]
  exact congrArg row (Fin.ext (by show 1280 * (5 * k + c) + l.val = 6400 * k + (1280 * c + l.val); omega))

/-- The running pair after `5 k + c` chunks is the stretch's after `c`, from the pair after `5 k`. -/
theorem run_stretch (row : Fin 32000 → EReal) (k : ℕ) (hk : k < 5) : ∀ c : ℕ, c ≤ 5 →
    runM row (5 * k + c) = blkM (stretch row k hk) (runM row (5 * k)) c
      ∧ runS row (5 * k + c) = blkS (stretch row k hk) (runM row (5 * k)) (runS row (5 * k)) c
  | 0, _ => ⟨rfl, rfl⟩
  | c + 1, hc => by
    obtain ⟨hm, hs⟩ := run_stretch row k hk c (by omega)
    constructor
    · show updM (chunk row (5 * k + c)) (runM row (5 * k + c)) = updM (sub (stretch row k hk) c) (blkM (stretch row k hk) (runM row (5 * k)) c)
      rw [chunk_stretch row k hk c (by omega), hm]
    · show updS (chunk row (5 * k + c)) (runM row (5 * k + c)) (runS row (5 * k + c))
        = updS (sub (stretch row k hk) c) (blkM (stretch row k hk) (runM row (5 * k)) c) (blkS (stretch row k hk) (runM row (5 * k)) (runS row (5 * k)) c)
      rw [chunk_stretch row k hk c (by omega), hm, hs]

/-- A grid point's five chunks take the running pair from `5 k` chunks to `5 (k + 1)`. -/
theorem runM_point (row : Fin 32000 → EReal) (k : ℕ) (hk : k < 5) :
    runM row (5 * (k + 1)) = blkM (stretch row k hk) (runM row (5 * k)) 5 :=
  (run_stretch row k hk 5 (Nat.le_refl _)).1

theorem runS_point (row : Fin 32000 → EReal) (k : ℕ) (hk : k < 5) :
    runS row (5 * (k + 1)) = blkS (stretch row k hk) (runM row (5 * k)) (runS row (5 * k)) 5 :=
  (run_stretch row k hk 5 (Nat.le_refl _)).2

/-- What a point leaves at a row, from an entry pair that is the row's running pair before the point's stretch. -/
theorem point_step (x0 : Vec Ideal S512x6400 .f32) (xs0 xs1 : Vec Ideal S512x1 .f32) (r : Fin 512)
    (row : Fin 32000 → EReal) (k : ℕ) (hk : k < 5)
    (hx : (fun q : Fin 6400 => x0 (ix2 r q)) = stretch row k hk)
    (h0 : xs0 (ix2 r 0) = runM row (5 * k)) (h1 : xs1 (ix2 r 0) = runS row (5 * k)) :
    m5 x0 xs0 (ix2 r 0) = runM row (5 * (k + 1)) ∧ s5 x0 xs0 xs1 (ix2 r 0) = runS row (5 * (k + 1)) := by
  rw [m5_apply, s5_apply, hx, h0, h1, runM_point row k hk, runS_point row k hk]
  exact ⟨rfl, rfl⟩

/-- The logits as launched, as a 4096 × 32000 array of extended reals. -/
abbrev logits (c : Dev nD) : (⟨2, ![4096, 32000]⟩ : Shape).Idx → EReal := m ((c : Thread nD τ).loc main_arg0)

/-! The input block at a point, read at an index. -/

/-- The grid has 40 points. -/
theorem N40 : cfg0.N = 40 := N_0

/-- The input window's block index at a point: (row tile, column tile). -/
theorem idx0 : ∀ t : Fin grid0.N, win0_0.index t (0 : Fin 2) = t.val / 5 ∧ win0_0.index t (1 : Fin 2) = t.val % 5 := by
  decide +kernel

/-- The output window's block index at a point: (row tile, 0). -/
theorem idx1 : ∀ t : Fin grid0.N, win0_1.index t (0 : Fin 2) = t.val / 5 ∧ win0_1.index t (1 : Fin 2) = 0 := by
  decide +kernel

/-- The input block at a point: 512 rows by 6400 columns of the logits. -/
abbrev xblk (c : Dev nD) (t : Fin cfg0.N) : Vec Ideal S512x6400 .f32 := iblk m c 0 t

/-- The block at point `t` reads the logits `512 (t / 5)` rows down and `6400 (t % 5)` columns across. -/
theorem xblk_apply (c : Dev nD) (t : Fin cfg0.N) (r : Fin 512) (q : Fin 6400) :
    xblk m c t (ix2 r q)
      = logits m c (ix2 (⟨512 * (t.val / 5) + r.val, by have := lt_of_lt_of_eq t.isLt N40; have := r.isLt; omega⟩ : Fin 4096)
          (⟨6400 * (t.val % 5) + q.val, by have := q.isLt; omega⟩ : Fin 32000)) := by
  have hi := idx0 t
  unfold xblk iblk
  rw [View.read_apply]
  show V m c main_arg0 (((cfg0.win 0).blk t).view.emb (ix2 r q)) = _
  rw [V_main_arg0]
  refine congrArg _ (funext fun a => Fin.ext ?_)
  match a with
  | ⟨0, _⟩ =>
    show win0_0.index t 0 * 512 + 1 * r.val = 512 * (t.val / 5) + r.val
    rw [hi.1]; omega
  | ⟨1, _⟩ =>
    show win0_0.index t 1 * 6400 + 1 * q.val = 6400 * (t.val % 5) + q.val
    rw [hi.2]; omega

/-- Row `512 (n / 5) + r` of the logits: the row that row `r` of the blocks of point `n`'s row tile lies in. -/
abbrev rowAt (c : Dev nD) (n : ℕ) (hn : n < 40) (r : Fin 512) : Fin 32000 → EReal :=
  rowOf (logits m c) ⟨512 * (n / 5) + r.val, by have := r.isLt; omega⟩

/-- Row `r` of the block at point `t` is stretch `t % 5` of that row of the logits. -/
theorem xblk_row (c : Dev nD) (t : Fin cfg0.N) (r : Fin 512) :
    (fun q : Fin 6400 => xblk m c t (ix2 r q))
      = stretch (rowAt m c t.val (lt_of_lt_of_eq t.isLt N40) r) (t.val % 5) (Nat.mod_lt _ (by decide)) := by
  funext q
  rw [xblk_apply]
  rfl

/-! The invariant: by induction on the point. -/

theorem inv (c : Dev nD) (n : ℕ) : ∀ (h : n < cfg0.N) (r : Fin 512),
    (outsAt0 m c n h).2.1 (ix2 r 0) = runM (rowAt m c n (lt_of_lt_of_eq h N40) r) (5 * (n % 5 + 1))
      ∧ (outsAt0 m c n h).2.2 (ix2 r 0) = runS (rowAt m c n (lt_of_lt_of_eq h N40) r) (5 * (n % 5 + 1))
      ∧ (n % 5 = 4 → (outsAt0 m c n h).1 (ix2 r 0) = kLse (rowAt m c n (lt_of_lt_of_eq h N40) r)) := by
  induction n using Nat.strong_induction_on with
  | _ n ih =>
    intro h r
    have hN : n < 40 := lt_of_lt_of_eq h N40
    have hk : n % 5 < 5 := Nat.mod_lt _ (by decide)
    have hx : (fun q : Fin 6400 => xblk m c ⟨n, h⟩ (ix2 r q)) = stretch (rowAt m c n hN r) (n % 5) hk := xblk_row m c ⟨n, h⟩ r
    by_cases h0 : n % 5 = 0
    · -- a row tile's first column tile: the pair restarts from the reset values, the running pair after no chunk
      have h1 : ¬n % 5 = 4 := by omega
      have e0 : k0_pay4 (F := Ideal) (ix2 r 0) = runM (rowAt m c n hN r) (5 * (n % 5)) := by
        rw [h0]; exact pay4_apply r
      have e1 : k0_pay5 (F := Ideal) (ix2 r 0) = runS (rowAt m c n hN r) (5 * (n % 5)) := by
        rw [h0]; exact pay5_apply r
      have hp := point_step (xblk m c ⟨n, h⟩) (k0_pay4 (F := Ideal)) (k0_pay5 (F := Ideal)) r (rowAt m c n hN r) (n % 5) hk hx e0 e1
      rw [outsAt0_A m c ⟨n, h⟩ h0 h1]
      dsimp only
      rw [sout_A_0, sout_A_1]
      exact ⟨hp.1, hp.2, fun h4 => absurd h4 h1⟩
    · -- a later column tile: the pair the point before left, which is of the same row tile
      have hlt : n - 1 < n := by omega
      have hN' : n - 1 < 40 := by omega
      obtain ⟨im, is, _⟩ := ih (n - 1) hlt (Nat.lt_of_le_of_lt (Nat.sub_le _ _) h) r
      have hrow : rowAt m c (n - 1) hN' r = rowAt m c n hN r :=
        congrArg (rowOf (logits m c)) (Fin.ext (by show 512 * ((n - 1) / 5) + r.val = 512 * (n / 5) + r.val; omega))
      have hkk : (n - 1) % 5 + 1 = n % 5 := by omega
      rw [hrow, hkk] at im is
      have hp := point_step (xblk m c ⟨n, h⟩) (outsAt0 m c (n - 1) (Nat.lt_of_le_of_lt (Nat.sub_le _ _) h)).2.1
        (outsAt0 m c (n - 1) (Nat.lt_of_le_of_lt (Nat.sub_le _ _) h)).2.2 r (rowAt m c n hN r) (n % 5) hk hx im is
      by_cases h1 : n % 5 = 4
      · rw [outsAt0_C m c ⟨n, h⟩ h0 h1]
        dsimp only
        rw [sout_C_0, sout_C_1, out_C_1, pay3_apply]
        refine ⟨hp.1, hp.2, fun _ => ?_⟩
        -- the stored output: maximum plus logarithm of the sum, after all 25 chunks
        refine (congrArg₂ (fun a b => a + Ideal.log b) hp.1 hp.2).trans ?_
        rw [h1]
        rfl
      · rw [outsAt0_B m c ⟨n, h⟩ h0 h1]
        dsimp only
        rw [sout_B_0, sout_B_1]
        exact ⟨hp.1, hp.2, fun h4 => absurd h4 h1⟩

/-- The array of row log-sum-exps. -/
abbrev lseArr (c : Dev nD) : Buf (Elt Ideal) ((c : Thread nD τ).loc main_v2) :=
  fun j => kLse (rowOf (logits m c) (j 0))

/-- At the last column tile of a row tile the output block holds, in every row, that row's log-sum-exp. -/
theorem out_at (c : Dev nD) (t : Fin cfg0.N) (h4 : t.val % 5 = 4) (y : S512x1.Idx) :
    (outsAt0 m c t.val t.isLt).1 y = kLse (rowAt m c t.val (lt_of_lt_of_eq t.isLt N40) (y 0)) := by
  have e : y = ix2 (y 0) (0 : Fin 1) := by
    have h1 : y 1 = (0 : Fin 1) := Fin.ext (by have := idx2_lt1 y; show (y 1).val = 0; omega)
    exact (eq_ix2 y).trans (congrArg (ix2 (y 0)) h1)
  exact (congrArg (outsAt0 m c t.val t.isLt).1 e).trans ((inv m c t.val t.isLt (y 0)).2.2 h4)

/-- What a write-back writes is the block of the array of row log-sum-exps it writes to. -/
theorem flushed_eq (c : Dev nD) (t : Fin cfg0.N) (hf : (cfg0.win 1).flush t = true) :
    (dats m 0 c).flushed 1 t = ((cfg0.win 1).blk t).view.read (Elt Ideal) (lseArr m c) := by
  have h4 : t.val % 5 = 4 := (flush0_1 t).mp hf
  have hN : t.val < 40 := lt_of_lt_of_eq t.isLt N40
  have hi := idx1 t
  show (cfg0.win 1).cut (grid0.coords t) ((dats m 0 c).after 1 t) = _
  rw [after0_1]
  funext y
  refine (out_at m c t h4 _).trans ?_
  rw [View.read_apply]
  show kLse (rowOf (logits m c) _) = kLse (rowOf (logits m c) ((((cfg0.win 1).blk t).view.emb y) 0))
  refine congrArg (fun R => kLse (rowOf (logits m c) R)) (Fin.ext ?_)
  show 512 * (t.val / 5) + (y 0).val = win0_1.index t 0 * 512 + 1 * (y 0).val
  rw [hi.1]; omega

/-- After the region the result array holds every row's log-sum-exp. -/
theorem lse_final (c : Dev nD) : (dats m 0 c).arrAt 1 cfg0.N = lseArr m c :=
  (dats m 0 c).arrAt_eq_of_cover 1 (lseArr m c) (flushed_eq m c) fun i => by
    -- row `R` of the result lies in the block written back at the last column tile of row tile `R / 512`
    have hR : (i 0).val < 4096 := idx2_lt0 i
    have hC : (i 1).val < 1 := idx2_lt1 i
    have ht : 5 * ((i 0).val / 512) + 4 < cfg0.N := by rw [N40]; omega
    have hi := idx1 ⟨5 * ((i 0).val / 512) + 4, ht⟩
    refine ⟨⟨5 * ((i 0).val / 512) + 4, ht⟩, (flush0_1 _).mpr (by show (5 * ((i 0).val / 512) + 4) % 5 = 4; omega), ?_⟩
    show i ∈ ((View.whole main_v2).slice (win0_1.rect ⟨5 * ((i 0).val / 512) + 4, ht⟩)).set
    rw [View.set_slice_whole, Rect.mem_set_unit]
    intro a
    match a with
    | ⟨0, _⟩ =>
      show win0_1.index ⟨5 * ((i 0).val / 512) + 4, ht⟩ 0 * 512 ≤ (i 0 : Nat)
        ∧ (i 0 : Nat) < win0_1.index ⟨5 * ((i 0).val / 512) + 4, ht⟩ 0 * 512 + 512
      rw [hi.1]
      show (5 * ((i 0).val / 512) + 4) / 5 * 512 ≤ (i 0 : Nat) ∧ (i 0 : Nat) < (5 * ((i 0).val / 512) + 4) / 5 * 512 + 512
      omega
    | ⟨1, _⟩ =>
      show win0_1.index ⟨5 * ((i 0).val / 512) + 4, ht⟩ 1 * 1 ≤ (i 1 : Nat)
        ∧ (i 1 : Nat) < win0_1.index ⟨5 * ((i 0).val / 512) + 4, ht⟩ 1 * 1 + 1
      rw [hi.2]
      omega

end Cert.KernelIdeal.Invariant

end
-- ==== Proof.KPrefix.lean ====
/-
  The host's gather before the region: with every label a class (`0 ≤ label < 32000`), `take_along_axis` reads each
  row of the logits at its label — no wrap of a negative index, no out-of-range fill, no clamping applies.
-/
import proofs.«424387_j11055245820044_3_alg».proof.Proof.Gen.KernelIdeal.Frame
import proofs.«424387_j11055245820044_3_alg».proof.Proof.RowSpec
import Idealize.ShloMosaic.Lib.ValueIdx
import Idealize.ShloMosaic.Lib.Pipeline.Value
import Idealize.ShloMosaic.Lib.StableHlo.Run

set_option maxRecDepth 16384

noncomputable section

namespace Cert.KernelIdeal.Prefix

open Idealize.ShloMosaic Idealize.ShloMosaic.TcCoe Idealize.ShloMosaic.ValueIdx Idealize.SL.Sem Idealize.ShloMosaic.StableHlo
open Cert.KernelIdeal Cert.KernelIdeal.Gen Cert.RowSpec

/-! ## Words in the class range

A label word `w` read signed lies in `[0, 32000)`: it is not negative, and it is inside both bounds of the in-range test. -/

section Words
variable {w : BitVec 32} (h0 : 0 ≤ w.toInt) (h1 : w.toInt < 32000)
include h0 h1

/-- `w < 0` fails. -/
theorem slt_zero : IntOp.cmpi .slt w 0#32 = 0#1 := by
  have hz : (0#32 : BitVec 32).toInt = 0 := by decide
  show BitVec.ofBool (w.slt 0#32) = 0#1
  rw [BitVec.slt, hz, decide_eq_false (by omega)]; rfl

/-- `w ≥ 0` holds. -/
theorem sge_zero : IntOp.cmpi .sge w 0#32 = 1#1 := by
  have hz : (0#32 : BitVec 32).toInt = 0 := by decide
  show BitVec.ofBool ((0#32 : BitVec 32).sle w) = 1#1
  rw [BitVec.sle, hz, decide_eq_true (by omega)]; rfl

/-- `w ≤ 31999` holds. -/
theorem sle_last : IntOp.cmpi .sle w 31999#32 = 1#1 := by
  have hz : (31999#32 : BitVec 32).toInt = 31999 := by decide
  show BitVec.ofBool (w.sle 31999#32) = 1#1
  rw [BitVec.sle, hz, decide_eq_true (by omega)]; rfl

end Words

/-! ## The and-fold of ones -/

/-- A left fold by `and` from 1 over words that are all 1 is 1. -/
theorem foldl_andi_ones {ι : Type} (g : ι → BitVec 1) (hg : ∀ n, g n = 1#1) :
    ∀ (l : List ι), l.foldl (fun r n => IntOp.andi r (g n)) 1#1 = 1#1
  | [] => rfl
  | a :: l => by
    rw [List.foldl_cons, hg a]
    exact foldl_andi_ones g hg l

/-- A reduce by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

/-! ## The batched gather read at a row

Operand axis 0 is a batching axis paired with axis 0 of the start indices, operand axis 1 is collapsed and is the one axis
the start index names: result element `(R, 0)` is row `R` of the operand at the start index `idx[R, 0, 0]`, read signed
and clamped into `[0, 31999]`. -/

theorem gather_row {α : Type} {w : Nat} (x : S4096x32000.Idx → α) (idx : IVec S4096x1x1 w) (R : Fin 4096) (v : BitVec w)
    (hv : idx (ix3 R 0 0) = v) :
    Host.gather gather_S4096x32000_S4096x1x1_S4096x1_n_1_0_0_1_2_11 x idx (ix2 R 0)
      = x (ix2 R ⟨min v.toInt.toNat 31999, by omega⟩) := by
  subst hv
  unfold Host.gather
  congr 1
  funext a
  refine Fin.ext ?_
  match a with
  | ⟨0, _⟩ =>
    show gather_S4096x32000_S4096x1x1_S4096x1_n_1_0_0_1_2_11.start (ix2 R 0) idx 0
        + gather_S4096x32000_S4096x1x1_S4096x1_n_1_0_0_1_2_11.batchCoord (ix2 R 0) 0
        + gather_S4096x32000_S4096x1x1_S4096x1_n_1_0_0_1_2_11.offCoord (ix2 R 0) 0 = R.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S4096x32000_S4096x1x1_S4096x1_n_1_0_0_1_2_11.start (ix2 R 0) idx 1
        + gather_S4096x32000_S4096x1x1_S4096x1_n_1_0_0_1_2_11.batchCoord (ix2 R 0) 1
        + gather_S4096x32000_S4096x1x1_S4096x1_n_1_0_0_1_2_11.offCoord (ix2 R 0) 1 = min (idx (ix3 R 0 0)).toInt.toNat 31999
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x32000_S4096x1x1_S4096x1_n_1_0_0_1_2_11.startIndexMap from List.mem_singleton.mpr rfl)]
    have hsi : gather_S4096x32000_S4096x1x1_S4096x1_n_1_0_0_1_2_11.siIdx (ix2 R 0)
        ⟨List.idxOf (1 : Fin 2) gather_S4096x32000_S4096x1x1_S4096x1_n_1_0_0_1_2_11.startIndexMap,
          List.idxOf_lt_length_iff.2 (List.mem_singleton.mpr rfl)⟩ = ix3 R 0 0 := by
      funext b; refine Fin.ext ?_
      match b with
      | ⟨0, _⟩ => rfl
      | ⟨1, _⟩ => rfl
      | ⟨2, _⟩ => rfl
    rw [hsi]
    rfl

/-! ## The host operations before the region, composed

`take_along_axis` in its default mode over a label array `lab` and an operand `x`: the labels as a column; a negative one
wrapped by the class count; the column as start indices `[4096, 1, 1]`; the mask of the start indices inside `[0, 31999]`;
the gather; and the gathered value where the mask holds, the filling word elsewhere. -/

/-- The labels as a `4096 × 1` column. -/
def col (lab : S4096.Idx → BitVec 32) : IVec S4096x1 32 := broadcastInDim S4096x1 ![0] bcast_S4096_S4096x1_0 lab

/-- The column with a negative entry moved up by the class count. -/
def wrapped (lab : S4096.Idx → BitVec 32) : IVec S4096x1 32 :=
  select (cmpi .slt (col lab) (broadcastInDim S4096x1 ![] bcast_S_S4096x1 (constantI S_ 32 0#32)))
    (addi (col lab) (broadcastInDim S4096x1 ![] bcast_S_S4096x1 (constantI S_ 32 32000#32))) (col lab)

/-- The start indices: the wrapped column as `4096 × 1 × 1`. -/
def starts (lab : S4096.Idx → BitVec 32) : IVec S4096x1x1 32 := shapeCast S4096x1x1 (wrapped lab) shapeCasts_S4096x1_S4096x1x1

/-- The in-range test of each start index. -/
def inside (lab : S4096.Idx → BitVec 32) : IVec S4096x1x1 1 :=
  andi (cmpi .sge (starts lab) (broadcastInDim S4096x1x1 ![] bcast_S_S4096x1x1 (constantI S_ 32 0#32)))
    (cmpi .sle (starts lab) (broadcastInDim S4096x1x1 ![0, 1, 2] bcast_S1x1x1_S4096x1x1_0_1_2
      (broadcastInDim S1x1x1 ![2] bcast_S1_S1x1x1_2 (constantI S1 32 31999#32))))

/-- The mask: the test reduced by `and` over the index vector's axis. -/
def mask (lab : S4096.Idx → BitVec 32) : IVec S4096x1 1 :=
  Host.reduce IntOp.andi (inside lab) (constantI S_ 1 1#1) reducesTo_S4096x1x1_S4096x1_d2 h_S_

/-- What `%1` holds: the gathered value under the mask, the filling word elsewhere. -/
def taken (x : S4096x32000.Idx → EReal) (lab : S4096.Idx → BitVec 32) : S4096x1.Idx → EReal :=
  select (mask lab) (Host.gather gather_S4096x32000_S4096x1x1_S4096x1_n_1_0_0_1_2_11 x (starts lab))
    (broadcastInDim S4096x1 ![] bcast_S_S4096x1 (constant (F := Ideal) S_ .f32 0x7FC00000#32))

section Reads
variable (lab : S4096.Idx → BitVec 32)

/-- The column at row `R` is label `R`. -/
theorem col_apply (R : Fin 4096) : col lab (ix2 R 0) = lab (ix1 R) := by
  unfold col
  exact broadcastInDim_apply _ _ lab (ix2 R 0) (ix1 R) (fun a => match a with | ⟨0, _⟩ => rfl)

/-- A label in the class range is not wrapped. -/
theorem wrapped_apply (R : Fin 4096) (h0 : 0 ≤ (lab (ix1 R)).toInt) (h1 : (lab (ix1 R)).toInt < 32000) :
    wrapped lab (ix2 R 0) = lab (ix1 R) := by
  have e : wrapped lab (ix2 R 0) = Scalar.select (IntOp.cmpi .slt (col lab (ix2 R 0)) 0#32)
      (IntOp.addi (col lab (ix2 R 0)) 32000#32) (col lab (ix2 R 0)) := rfl
  rw [e, col_apply, slt_zero h0 h1, select_zero]

/-- The start index of row `R` is the wrapped column's entry. -/
theorem starts_apply (R : Fin 4096) : starts lab (ix3 R 0 0) = wrapped lab (ix2 R 0) := by
  unfold starts
  refine shapeCast_apply _ _ (ix3 R 0 0) (ix2 R 0) ?_
  rw [Shape.rowMajor_val_two, Shape.rowMajor_val_three]
  show R.val * 1 + 0 = (R.val * 1 + 0) * 1 + 0
  omega

variable (hrange : ∀ R : Fin 4096, 0 ≤ (lab (ix1 R)).toInt ∧ (lab (ix1 R)).toInt < 32000)
include hrange

/-- With every label a class, every start index passes the in-range test. -/
theorem inside_one (i : S4096x1x1.Idx) : inside lab i = 1#1 := by
  have hi : ∃ R : Fin 4096, i = ix3 R 0 0 := ⟨i 0, funext fun a => match a with
    | ⟨0, _⟩ => rfl
    | ⟨1, _⟩ => Subsingleton.elim (α := Fin 1) _ _
    | ⟨2, _⟩ => Subsingleton.elim (α := Fin 1) _ _⟩
  obtain ⟨R, rfl⟩ := hi
  have e : inside lab (ix3 R 0 0) = IntOp.andi (IntOp.cmpi .sge (starts lab (ix3 R 0 0)) 0#32)
      (IntOp.cmpi .sle (starts lab (ix3 R 0 0)) 31999#32) := rfl
  rw [e, starts_apply, wrapped_apply lab R (hrange R).1 (hrange R).2,
    sge_zero (hrange R).1 (hrange R).2, sle_last (hrange R).1 (hrange R).2]
  rfl

/-- So the mask holds at every row. -/
theorem mask_one (j : S4096x1.Idx) : mask lab j = 1#1 :=
  reduce_andi_ones _ _ _ _ (inside_one lab hrange) (fun _ => rfl) j

/-- And `%1` at row `R` is the operand's row `R` at its label. -/
theorem taken_apply (x : S4096x32000.Idx → EReal) (R : Fin 4096) :
    taken x lab (ix2 R 0) = x (ix2 R (tOf (lab (ix1 R)))) := by
  have e : taken x lab (ix2 R 0) = Scalar.select (mask lab (ix2 R 0))
      (Host.gather gather_S4096x32000_S4096x1x1_S4096x1_n_1_0_0_1_2_11 x (starts lab) (ix2 R 0))
      (Ideal.ofBits .f32 0x7FC00000#32) := rfl
  rw [e, mask_one lab hrange, select_one,
    gather_row x (starts lab) R (lab (ix1 R)) ((starts_apply lab R).trans (wrapped_apply lab R (hrange R).1 (hrange R).2))]
  rfl

end Reads

variable (m : (ℓ : Loc nD τ sig) → Buf (Elt Ideal) ℓ)

/-- The logits as launched. -/
abbrev logits (c : Dev nD) : (⟨2, ![4096, 32000]⟩ : Shape).Idx → EReal := m ((c : Thread nD τ).loc main_arg0)
/-- The labels as launched. -/
abbrev labels (c : Dev nD) : (⟨1, ![4096]⟩ : Shape).Idx → BitVec 32 := m ((c : Thread nD τ).loc main_arg1)

/-- The fold over the host operations before the region, read at `%1`: the composed gather of the launched arrays. -/
theorem V_main_v1 (c : Dev nD) : (V m c main_v1 : (⟨2, ![4096, 1]⟩ : Shape).Idx → EReal) = taken (logits m c) (labels m c) := by
  dsimp only [Gen.V, Gen.V0]
  simp only [Gen.hostOps0, Gen.hostOps0_1, List.flatten_cons, List.flatten_nil, List.append_nil, List.cons_append, List.nil_append]
  after_results_simp
  simp only [TRef.ofBuf, TRef.toBuf, cast_eq]
  rfl

/-- The gathered column the region finds in `%1`: row `R` of the logits at its label. -/
theorem target_logit (c : Dev nD)
    (hrange : ∀ R : Fin 4096, 0 ≤ (labels m c (ix1 R)).toInt ∧ (labels m c (ix1 R)).toInt < 32000) (R : Fin 4096) :
    (V m c main_v1 : (⟨2, ![4096, 1]⟩ : Shape).Idx → EReal) (ix2 R 0) = logits m c (ix2 R (tOf (labels m c (ix1 R)))) := by
  rw [V_main_v1]
  exact taken_apply (labels m c) hrange (logits m c) R

end Cert.KernelIdeal.Prefix

end
-- ==== Proof.KTail.lean ====
/-
  The host's arithmetic after the region: from the gathered label logits and the rows' log-sum-exps to the loss.
  Per row: log-probability `x_t - lse`, its exponential `p_t`, the deviation `2 (1 - p_t) / 32000`; then
  `1 · mean (exp (d + d²)) + 1 · (-(mean (x_t - lse)))` over the 4096 rows.
-/
import proofs.«424387_j11055245820044_3_alg».proof.Proof.Gen.KernelIdeal.Frame
import proofs.«424387_j11055245820044_3_alg».proof.Proof.RowSpec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Tail

open Idealize.ShloMosaic Idealize.ShloMosaic.TcCoe Idealize.ShloMosaic.ValueIdx Idealize.SL.Sem Idealize.ShloMosaic.StableHlo
open Cert.KernelIdeal Cert.KernelIdeal.Gen Cert.RowSpec

variable (m : (ℓ : Loc nD τ sig) → Buf (Elt Ideal) ℓ)

/-- The logits as launched. -/
abbrev logits (c : Dev nD) : (⟨2, ![4096, 32000]⟩ : Shape).Idx → EReal := m ((c : Thread nD τ).loc main_arg0)
/-- The labels as launched. -/
abbrev labels (c : Dev nD) : (⟨1, ![4096]⟩ : Shape).Idx → BitVec 32 := m ((c : Thread nD τ).loc main_arg1)

/-! ## The tail as a function of the two columns -/

/-- The per-row log-probability column: the gathered logit minus the row's log-sum-exp. -/
def lpCol (xt lse : S4096x1.Idx → EReal) : FVec Ideal S4096x1 .f32 := subf xt lse

/-- The per-row deviation column `2 (1 - exp lp) / 32000`. -/
def dCol (xt lse : S4096x1.Idx → EReal) : FVec Ideal S4096x1 .f32 :=
  Host.divf
    (mulf (broadcastInDim S4096x1 ![] bcast_S_S4096x1 (constant (F := Ideal) S_ .f32 0x40000000#32))
      (subf (broadcastInDim S4096x1 ![] bcast_S_S4096x1 (constant (F := Ideal) S_ .f32 0x3F800000#32))
        (Host.exp (lpCol xt lse))))
    (broadcastInDim S4096x1 ![] bcast_S_S4096x1 (constant (F := Ideal) S_ .f32 0x46FA0000#32))

/-- The loss as the operations after the region compose it from the two columns:
    `1 · (Σ exp (d + d·d) / 4096) + 1 · (-(Σ lp / 4096))`. -/
def tailFn (xt lse : S4096x1.Idx → EReal) : FVec Ideal S_ .f32 :=
  addf
    (mulf (constant (F := Ideal) S_ .f32 0x3F800000#32)
      (Host.divf
        (Host.reduceAdd (F := Ideal) (Host.exp (addf (dCol xt lse) (mulf (dCol xt lse) (dCol xt lse))))
          (constant (F := Ideal) S_ .f32 0x00000000#32) reducesTo_S4096x1_S_d0_1 h_S_)
        (constant (F := Ideal) S_ .f32 0x45800000#32)))
    (mulf (constant (F := Ideal) S_ .f32 0x3F800000#32)
      (Host.negf
        (Host.divf
          (Host.reduceAdd (F := Ideal) (lpCol xt lse) (constant (F := Ideal) S_ .f32 0x00000000#32)
            reducesTo_S4096x1_S_d0_1 h_S_)
          (constant (F := Ideal) S_ .f32 0x45800000#32))))

/-- The log-probability column at an index. -/
theorem lpCol_apply (xt lse : S4096x1.Idx → EReal) (i : S4096x1.Idx) : lpCol xt lse i = xt i - lse i := rfl

/-- The deviation column at an index: every broadcast constant reads its word. -/
theorem dCol_apply (xt lse : S4096x1.Idx → EReal) (i : S4096x1.Idx) :
    dCol xt lse i = Ideal.div (wTwo * (wOne - Ideal.exp (xt i - lse i))) wC := rfl

/-- A sum over the indices of a 4096 × 1 column is the sum over its rows. -/
theorem sum_col (f : S4096x1.Idx → EReal) : ∑ i : S4096x1.Idx, f i = ∑ R : Fin 4096, f (ix2 R 0) := by
  rw [show (∑ i : S4096x1.Idx, f i) = ∑ a : Fin 4096, ∑ b : Fin 1, f (ix2 a b) from sum_idx2 f]
  exact Finset.sum_congr rfl fun a _ => Fin.sum_univ_one _

/-- The composed tail is the closing formula at the two per-row vectors read off the columns: each sum into
    rank 0 is the initial word plus the sum over every index of the column, re-indexed by rows. -/
theorem tailFn_eq (xt lse : S4096x1.Idx → EReal) :
    tailFn xt lse = fun _ =>
      final (fun R => Ideal.div (wTwo * (wOne - Ideal.exp (xt (ix2 R 0) - lse (ix2 R 0)))) wC)
        (fun R => xt (ix2 R 0) - lse (ix2 R 0)) := by
  funext j
  unfold tailFn final
  show wOne * Ideal.div (Ideal.hostReduceAdd reducesTo_S4096x1_S_d0_1 _ wZero j) wB
      + wOne * (-(Ideal.div (Ideal.hostReduceAdd reducesTo_S4096x1_S_d0_1 _ wZero j) wB)) = _
  rw [Ideal.hostReduceAdd_total reducesTo_S4096x1_S_d0_1 (fun b => b.elim0),
    Ideal.hostReduceAdd_total reducesTo_S4096x1_S_d0_1 (fun b => b.elim0), sum_col, sum_col]
  rfl

/-! ## The program's result -/

/-- The program's result from the gathered column and the region's result array. -/
theorem result_eq (c : Dev nD)
    (hxt : ∀ R : Fin 4096, (V m c main_v1 : (⟨2, ![4096, 1]⟩ : Shape).Idx → EReal) (ix2 R 0)
      = logits m c (ix2 R (tOf (labels m c (ix1 R)))))
    (hlse : ∀ R : Fin 4096, ((dats m 0 c).arrAt 1 cfg0.N : (⟨2, ![4096, 1]⟩ : Shape).Idx → EReal) (ix2 R 0)
      = kLse (rowOf (logits m c) R)) :
    (Pipeline.afterTail₀ cfgs (dats m) 0 (V0 m) [hostOps1] c main_v21 : (⟨0, ![]⟩ : Shape).Idx → EReal)
      = fun _ => kval (logits m c) (labels m c) := by
  unfold Pipeline.afterTail₀
  simp only [List.flatten_cons, List.flatten_nil, List.append_nil]
  show StableHlo.after hostOps1 _ (Proc.devRef .tc main_v21) = _
  after_results_simp
  -- the gathered column is no array of the region: it is as the operations before the region left it
  have h1 : Pipeline.withArrays (cfgs 0).spec c (V0 m c) (fun w => (dats m 0 c).arrAt w (cfgs 0).N)
      (Proc.devRef .tc main_v1) = V m c main_v1 :=
    Pipeline.withArrays_of_ne spec0 c (V0 m c) _ main_v1 (by decide : ∀ w, Pipeline.arrRef spec0 w ≠ main_v1)
  -- the other column is the region's second array: as the region left it
  have h2 : Pipeline.withArrays (cfgs 0).spec c (V0 m c) (fun w => (dats m 0 c).arrAt w (cfgs 0).N)
      (Proc.devRef .tc main_v2) = (dats m 0 c).arrAt 1 cfg0.N :=
    Pipeline.withArrays_arr spec0 launch0.win.arr_inj c _ _ 1
  rw [h1, h2]
  show tailFn (V m c main_v1) ((dats m 0 c).arrAt 1 cfg0.N) = _
  rw [tailFn_eq]
  funext _
  unfold kval
  refine congrArg₂ final ?_ ?_ <;> funext R
  · rw [hxt R, hlse R]; rfl
  · rw [hxt R, hlse R]; rfl

end Cert.KernelIdeal.Tail

end
-- ==== Proof.RefRun.lean ====
/-
  The reference's run, with its result named by the last stage of its operation-by-operation reading: every weakly
  fair execution of the reference terminates with `%31` at the stage function of the two argument arrays, the
  arguments unchanged.
-/
import proofs.«424387_j11055245820044_3_alg».proof.Proof.RefRunP
import proofs.«424387_j11055245820044_3_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The run's composed term of the arguments is the last stage: the stages unfold to it. -/
theorem res_eq (m : (ℓ : Loc nD τ sig) → Buf (Elt F) ℓ) (c : Dev nD) :
    Cert.ReferenceIdeal.ValueP.res_main_v31 m c
      = Cert.ReferenceIdeal.ReadP.val_main_v31 (F := F) (m ((c.tc : Thread nD τ).loc main_arg0)) (m ((c.tc : Thread nD τ).loc main_arg1)) := by
  unfold Cert.ReferenceIdeal.ValueP.res_main_v31; rfl

/-- The reference's run, read through the stages. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = Cert.ReferenceIdeal.ReadP.val_main_v31 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res_eq m c), (h c).2⟩) (Cert.ReferenceIdeal.ValueP.run m ρ)

end Cert.ReferenceIdeal.RefRun

end
-- ==== Proof.RefDev.lean ====
/-
  The reference's per-row deviation: the soft-max of row `R` (exponentials shifted by the row's maximum, divided by
  their sum) against the label's indicator, absolute differences averaged over the 32000 classes.
-/
import proofs.«424387_j11055245820044_3_alg».proof.Proof.RefReadP
import proofs.«424387_j11055245820044_3_alg».proof.Proof.RowSpec
import Idealize.ShloMosaic.Lib.ValueIdx
import Idealize.ShloMosaic.Lib.Pipeline.Value
import Idealize.ShloMosaic.PureOps.Ideal.Laws

noncomputable section

open scoped BigOperators

namespace Cert.ReferenceIdeal.RefDev

open Idealize.ShloMosaic Idealize.ShloMosaic.ValueIdx Cert.ReferenceIdeal Cert.ReferenceIdeal.Gen Cert.ReferenceIdeal.ReadP Cert.RowSpec

/-- The row maximum (`%0`): the fold of `max` from -∞ over the row's 32000 entries. -/
theorem v0_apply (x : (⟨S4096x32000, .f32⟩ : BufTy).Contents (Elt Ideal)) (R : Fin 4096) :
    val_main_v0 (F := Ideal) x (ix1 R) = (Finset.univ : Finset (Fin 32000)).fold max wNegInf (rowOf x R) := by
  unfold val_main_v0
  refine (Host.reduce_eq_fold_single (α := Ideal .f32) FloatOps.maximumf x _ reducesTo_S4096x32000_S4096_d1 (by decide) h_S_ (ix1 R)).trans ?_
  have hrow : (x ∘ Shape.Reduces.lift (s := S4096x32000) (a := 1) (t := S4096) (by decide) (ix1 R)) = rowOf x R := by
    funext k
    show x _ = x _
    exact congrArg x (funext fun a => Fin.ext (by match a with | ⟨0, _⟩ => rfl | ⟨1, _⟩ => rfl))
  rw [hrow]
  rfl

/-- The row's maximum as the reference takes it (`%2`): -∞ against the fold. -/
theorem v2_apply (x : (⟨S4096x32000, .f32⟩ : BufTy).Contents (Elt Ideal)) (R : Fin 4096) :
    val_main_v2 (F := Ideal) x (ix1 R) = refM (rowOf x R) := by
  rw [val_main_v2_apply, val_main_v1_apply, val_main_cst_0_apply, v0_apply]
  rfl

/-- The shifted exponential of entry `k` of row `R` (`%6`). -/
theorem v6_apply (x : (⟨S4096x32000, .f32⟩ : BufTy).Contents (Elt Ideal)) (R : Fin 4096) (k : Fin 32000) :
    val_main_v6 (F := Ideal) x (ix2 R k) = Ideal.exp (rowOf x R k - refM (rowOf x R)) := by
  rw [val_main_v6_apply, val_main_v5_apply, val_main_v4_apply, val_main_v3_apply]
  have hi : idx_main_v3 (idx_main_v4 (ix2 R k)) = ix1 R :=
    funext fun a => Fin.ext (by match a with | ⟨0, _⟩ => rfl)
  rw [hi, v2_apply]
  rfl

/-- The sum of the row's shifted exponentials (`%7`). -/
theorem v7_apply (x : (⟨S4096x32000, .f32⟩ : BufTy).Contents (Elt Ideal)) (R : Fin 4096) :
    val_main_v7 (F := Ideal) x (ix1 R) = refS (rowOf x R) := by
  rw [val_main_v7_apply, val_main_cst_1_apply]
  unfold refS
  refine congrArg₂ (· + ·) rfl (Finset.sum_congr rfl fun k _ => ?_)
  have hi : idx_main_v7 (ix1 R) k = ix2 R k :=
    funext fun a => Fin.ext (by match a with | ⟨0, _⟩ => rfl | ⟨1, _⟩ => rfl)
  rw [hi, v6_apply]

/-- The soft-max of row `R` at class `k` (`%10`). -/
theorem v10_apply (x : (⟨S4096x32000, .f32⟩ : BufTy).Contents (Elt Ideal)) (R : Fin 4096) (k : Fin 32000) :
    val_main_v10 (F := Ideal) x (ix2 R k) = refP (rowOf x R) k := by
  rw [val_main_v10_apply, val_main_v9_apply, val_main_v8_apply]
  have hi : idx_main_v8 (idx_main_v9 (ix2 R k)) = ix1 R :=
    funext fun a => Fin.ext (by match a with | ⟨0, _⟩ => rfl)
  rw [hi, v7_apply, v6_apply]
  rfl

/-- A one-bit word read unsigned as a float: one for a true comparison, zero for a false one. -/
theorem uitofp_ofBool (c : Bool) :
    FloatOps.uitofp (F := Ideal) .f32 (BitVec.ofBool c) = if c then (1 : EReal) else 0 := by
  cases c
  · show ((((BitVec.ofBool false).toNat : ℕ) : ℝ) : EReal) = 0
    simp
  · show ((((BitVec.ofBool true).toNat : ℕ) : ℝ) : EReal) = 1
    simp

/-- A label word in range, compared with the word of a class `k`, is the indicator of `k` being the label's class. -/
theorem hot_word (w : BitVec 32) (h0 : 0 ≤ w.toInt) (h1 : w.toInt < 32000) (k : Fin 32000) :
    FloatOps.uitofp (F := Ideal) .f32 (IntOp.cmpi .eq w (BitVec.ofNat 32 k.val)) = hot (tOf w) k := by
  have hk : k.val < 32000 := k.isLt
  have hnat : w.toInt = (w.toNat : ℤ) := by
    have hlt := w.isLt
    rw [BitVec.toInt_eq_toNat_cond] at h0 ⊢
    split_ifs at h0 ⊢ with hc
    · rfl
    · omega
  have htv : (tOf w).val = w.toNat := by
    show min w.toInt.toNat 31999 = w.toNat
    omega
  unfold hot
  show FloatOps.uitofp (F := Ideal) .f32 (BitVec.ofBool (w == BitVec.ofNat 32 k.val)) = _
  rw [uitofp_ofBool]
  by_cases hkt : k = tOf w
  · rw [if_pos hkt]
    have hb : (w == BitVec.ofNat 32 k.val) = true := by
      rw [beq_iff_eq]
      apply BitVec.eq_of_toNat_eq
      rw [BitVec.toNat_ofNat, Nat.mod_eq_of_lt (by omega)]
      have := congrArg Fin.val hkt
      omega
    rw [hb]; rfl
  · rw [if_neg hkt]
    have hb : (w == BitVec.ofNat 32 k.val) = false := by
      rw [beq_eq_false_iff_ne]
      intro he
      apply hkt
      apply Fin.ext
      have := congrArg BitVec.toNat he
      rw [BitVec.toNat_ofNat, Nat.mod_eq_of_lt (by omega)] at this
      omega
    rw [hb]; rfl

/-- The label's indicator at class `k` of row `R` (`%11`): the label word against the word of `k`, read as 1 or 0. -/
theorem v11_apply (tg : (⟨S4096, .i32⟩ : BufTy).Contents (Elt Ideal)) (R : Fin 4096) (k : Fin 32000)
    (hR : 0 ≤ (tg (ix1 R)).toInt ∧ (tg (ix1 R)).toInt < 32000) :
    val_main_v11 (F := Ideal) tg (ix2 R k) = hot (tOf (tg (ix1 R))) k := by
  rw [val_main_v11_apply, val_main_call0_v4_apply, val_main_call0_v2_apply, val_main_call0_v0_apply,
    val_main_call0_v3_apply, val_main_call0_v1_apply]
  have hi : idx_main_call0_v0 (idx_main_call0_v2 (ix2 R k)) = ix1 R :=
    funext fun a => Fin.ext (by match a with | ⟨0, _⟩ => rfl)
  rw [hi]
  exact hot_word _ hR.1 hR.2 k

/-- Row `R`'s deviation as the reference computes it (`%16`), with the row's label a class. -/
theorem dev_apply (x : (⟨S4096x32000, .f32⟩ : BufTy).Contents (Elt Ideal)) (tg : (⟨S4096, .i32⟩ : BufTy).Contents (Elt Ideal))
    (R : Fin 4096) (hR : 0 ≤ (tg (ix1 R)).toInt ∧ (tg (ix1 R)).toInt < 32000) :
    val_main_v16 (F := Ideal) x tg (ix1 R) = refD (rowOf x R) (tOf (tg (ix1 R))) := by
  rw [val_main_v16_apply, val_main_v15_apply, val_main_cst_3_apply, val_main_v14_apply, val_main_cst_2_apply]
  have hsum : ∀ k : Fin 32000, val_main_v13 (F := Ideal) x tg (idx_main_v14 (ix1 R) k)
      = max (refP (rowOf x R) k - hot (tOf (tg (ix1 R))) k) (-(refP (rowOf x R) k - hot (tOf (tg (ix1 R))) k)) := by
    intro k
    have hi : idx_main_v14 (ix1 R) k = ix2 R k :=
      funext fun a => Fin.ext (by match a with | ⟨0, _⟩ => rfl | ⟨1, _⟩ => rfl)
    rw [hi, val_main_v13_apply, val_main_v12_apply, v10_apply, v11_apply tg R k hR]
    rfl
  rw [Finset.sum_congr rfl (fun k _ => hsum k)]
  rfl

end Cert.ReferenceIdeal.RefDev

end
-- ==== Proof.RefLogp.lean ====
/-
  The reference's per-row log-probability of the label: the log-soft-max of row `R` (the row shifted by its maximum,
  minus the logarithm of the sum of the shifted exponentials) gathered at the label; with the label a class the gather
  reads the row at the label itself.
-/
import proofs.«424387_j11055245820044_3_alg».proof.Proof.RefReadP
import proofs.«424387_j11055245820044_3_alg».proof.Proof.RowSpec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefLogp

open Idealize.ShloMosaic Idealize.ShloMosaic.ValueIdx Cert.ReferenceIdeal Cert.ReferenceIdeal.ReadP Cert.RowSpec

/-! ## The row maximum and the shifted row -/

theorem reduces_d1 : S4096x32000.Reduces [1] S4096 := by decide

/-- Row `R`'s index with column `k` inserted is `(R, k)`. -/
theorem lift_d1 (R : Fin 4096) (k : Fin 32000) : reduces_d1.lift (ix1 R) k = ix2 R k :=
  funext fun a => Fin.ext (by match a with | ⟨0, _⟩ => rfl | ⟨1, _⟩ => rfl)

/-- The axis-1 maximum of the argument at row `R`: the fold of `max` from -∞ over the row. -/
theorem call1_v0_apply (x : (⟨S4096x32000, .f32⟩ : BufTy).Contents (Elt Ideal)) (R : Fin 4096) :
    val_main_call1_v0 (F := Ideal) x (ix1 R) = (Finset.univ : Finset (Fin 32000)).fold max wNegInf (rowOf x R) := by
  unfold val_main_call1_v0
  refine (Host.reduce_eq_fold_single (FloatOps.maximumf (F := Ideal) (φ := .f32)) x (val_main_call1_cst (F := Ideal)) Gen.reducesTo_S4096x32000_S4096_d1 reduces_d1 Gen.h_S_ (ix1 R)).trans ?_
  have hrow : x ∘ reduces_d1.lift (ix1 R) = rowOf x R := funext fun k => congrArg x (lift_d1 R k)
  rw [hrow]
  rfl

/-- The log-soft-max's row maximum is the row's `refM`. -/
theorem call1_v2_apply (x : (⟨S4096x32000, .f32⟩ : BufTy).Contents (Elt Ideal)) (R : Fin 4096) :
    val_main_call1_v2 (F := Ideal) x (ix1 R) = refM (rowOf x R) := by
  rw [val_main_call1_v2_apply, val_main_call1_v1_apply, val_main_call1_cst_0_apply, call1_v0_apply]
  rfl

theorem idx_v3_v4 (R : Fin 4096) (k : Fin 32000) : idx_main_call1_v3 (idx_main_call1_v4 (ix2 R k)) = ix1 R :=
  funext fun a => Fin.ext (by match a with | ⟨0, _⟩ => rfl)

/-- The shifted row: the logit minus the row's maximum. -/
theorem call1_v5_apply (x : (⟨S4096x32000, .f32⟩ : BufTy).Contents (Elt Ideal)) (R : Fin 4096) (k : Fin 32000) :
    val_main_call1_v5 (F := Ideal) x (ix2 R k) = rowOf x R k - refM (rowOf x R) := by
  rw [val_main_call1_v5_apply, val_main_call1_v4_apply, val_main_call1_v3_apply, idx_v3_v4, call1_v2_apply]
  rfl

theorem idx_v7 (R : Fin 4096) (k : Fin 32000) : idx_main_call1_v7 (ix1 R) k = ix2 R k :=
  funext fun a => Fin.ext (by match a with | ⟨0, _⟩ => rfl | ⟨1, _⟩ => rfl)

/-- The sum of the shifted exponentials is the row's `refS`. -/
theorem call1_v7_apply (x : (⟨S4096x32000, .f32⟩ : BufTy).Contents (Elt Ideal)) (R : Fin 4096) :
    val_main_call1_v7 (F := Ideal) x (ix1 R) = refS (rowOf x R) := by
  rw [val_main_call1_v7_apply, val_main_call1_cst_1_apply]
  unfold refS
  refine congrArg (_ + ·) (Finset.sum_congr rfl fun k _ => ?_)
  rw [val_main_call1_v6_apply, idx_v7, call1_v5_apply]
  rfl

theorem idx_v8_v10 (R : Fin 4096) (k : Fin 32000) : idx_main_call1_v8 (idx_main_call1_v10 (ix2 R k)) = ix1 R :=
  funext fun a => Fin.ext (by match a with | ⟨0, _⟩ => rfl)

/-- The log-soft-max at `(R, k)`: the shifted logit minus the logarithm of the sum. -/
theorem v22_apply (x : (⟨S4096x32000, .f32⟩ : BufTy).Contents (Elt Ideal)) (R : Fin 4096) (k : Fin 32000) :
    val_main_v22 (F := Ideal) x (ix2 R k) = refLp (rowOf x R) k := by
  rw [val_main_v22_apply, call1_v5_apply, val_main_call1_v10_apply, val_main_call1_v9_apply, val_main_call1_v8_apply,
    idx_v8_v10, call1_v7_apply]
  simp only [refLp, Ideal.subf_def, Ideal.hostUnary_log_def]

/-! ## The label words -/

theorem toInt_zero32 : (0#32 : BitVec 32).toInt = 0 := by decide
theorem toInt_31999 : (31999#32 : BitVec 32).toInt = 31999 := by decide

/-- A word that reads non-negative is not below zero. -/
theorem cmpi_slt_zero (w : BitVec 32) (h : 0 ≤ w.toInt) : IntOp.cmpi .slt w 0#32 = 0#1 := by
  show BitVec.ofBool (w.slt 0#32) = 0#1
  have e : w.slt 0#32 = false := by
    simp only [BitVec.slt, toInt_zero32]; exact decide_eq_false (by omega)
  rw [e]; rfl

/-- A word that reads non-negative is at least zero. -/
theorem cmpi_sge_zero (w : BitVec 32) (h : 0 ≤ w.toInt) : IntOp.cmpi .sge w 0#32 = 1#1 := by
  show BitVec.ofBool ((0#32 : BitVec 32).sle w) = 1#1
  have e : (0#32 : BitVec 32).sle w = true := by
    simp only [BitVec.sle, toInt_zero32]; exact decide_eq_true h
  rw [e]; rfl

/-- A word that reads below 32000 is at most 31999. -/
theorem cmpi_sle_last (w : BitVec 32) (h : w.toInt < 32000) : IntOp.cmpi .sle w 31999#32 = 1#1 := by
  show BitVec.ofBool (w.sle 31999#32) = 1#1
  have e : w.sle 31999#32 = true := by
    simp only [BitVec.sle, toInt_31999]; exact decide_eq_true (by omega)
  rw [e]; rfl

theorem idx_v23 (R : Fin 4096) : idx_main_v23 (ix2 R (0 : Fin 1)) = ix1 R :=
  funext fun a => Fin.ext (by match a with | ⟨0, _⟩ => rfl)

/-- The labels as a column: row `R`'s entry is row `R`'s label. -/
theorem v23_apply (tg : (⟨S4096, .i32⟩ : BufTy).Contents (Elt Ideal)) (R : Fin 4096) :
    val_main_v23 (F := Ideal) tg (ix2 R (0 : Fin 1)) = tg (ix1 R) := by
  rw [val_main_v23_apply, idx_v23]

/-- The wrapped index of a label that is a class is the label. -/
theorem call2_v4_apply (tg : (⟨S4096, .i32⟩ : BufTy).Contents (Elt Ideal)) (R : Fin 4096) (h : 0 ≤ (tg (ix1 R)).toInt) :
    val_main_call2_v4 (F := Ideal) tg (ix2 R (0 : Fin 1)) = tg (ix1 R) := by
  rw [val_main_call2_v4_apply, val_main_call2_v1_apply, v23_apply, val_main_call2_v0_apply, val_main_call2_c_apply,
    cmpi_slt_zero _ h, select_zero]

theorem idx_v5 (R : Fin 4096) : idx_main_call2_v5 (ix3 R (0 : Fin 1) (0 : Fin 1)) = ix2 R (0 : Fin 1) :=
  funext fun a => Fin.ext (by
    match a with
    | ⟨0, _⟩ => show ((R.val * 1 + 0) * 1 + 0) / 1 = R.val; omega
    | ⟨1, _⟩ => rfl)

/-- The start indices of the gather: row `R`'s is row `R`'s label. -/
theorem call2_v5_apply (tg : (⟨S4096, .i32⟩ : BufTy).Contents (Elt Ideal)) (R : Fin 4096) (h : 0 ≤ (tg (ix1 R)).toInt) :
    val_main_call2_v5 (F := Ideal) tg (ix3 R (0 : Fin 1) (0 : Fin 1)) = tg (ix1 R) := by
  rw [val_main_call2_v5_apply, idx_v5, call2_v4_apply tg R h]

/-! ## The in-bounds mask -/

theorem reduces_d2 : S4096x1x1.Reduces [2] S4096x1 := by decide

theorem lift_d2 (R : Fin 4096) (k : Fin 1) : reduces_d2.lift (ix2 R (0 : Fin 1)) k = ix3 R (0 : Fin 1) (0 : Fin 1) :=
  funext fun a => Fin.ext (by
    match a with
    | ⟨0, _⟩ => rfl
    | ⟨1, _⟩ => rfl
    | ⟨2, _⟩ => show k.val = 0; omega)

/-- A fold over an axis of extent one is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- The in-bounds bit at `(R, 0, 0)` of a label that is a class. -/
theorem call2_v11_apply (tg : (⟨S4096, .i32⟩ : BufTy).Contents (Elt Ideal)) (R : Fin 4096)
    (hR : 0 ≤ (tg (ix1 R)).toInt ∧ (tg (ix1 R)).toInt < 32000) :
    val_main_call2_v11 (F := Ideal) tg (ix3 R (0 : Fin 1) (0 : Fin 1)) = 1#1 := by
  rw [val_main_call2_v11_apply, val_main_call2_v7_apply, val_main_call2_v10_apply, call2_v5_apply tg R hR.1,
    val_main_call2_v6_apply, val_main_call2_c_2_apply, val_main_call2_v9_apply, val_main_call2_v8_apply,
    val_main_call2_c_1_apply, cmpi_sge_zero _ hR.1, cmpi_sle_last _ hR.2]
  rfl

/-- The mask of a label that is a class is set. -/
theorem call2_v12_apply (tg : (⟨S4096, .i32⟩ : BufTy).Contents (Elt Ideal)) (R : Fin 4096)
    (hR : 0 ≤ (tg (ix1 R)).toInt ∧ (tg (ix1 R)).toInt < 32000) :
    val_main_call2_v12 (F := Ideal) tg (ix2 R (0 : Fin 1)) = 1#1 := by
  unfold val_main_call2_v12
  refine (Host.reduce_eq_fold_single IntOp.andi (val_main_call2_v11 (F := Ideal) tg) (val_main_call2_c_3 (F := Ideal))
    Gen.reducesTo_S4096x1x1_S4096x1_d2 reduces_d2 Gen.h_S_ (ix2 R (0 : Fin 1))).trans ?_
  refine (fold_fin_one IntOp.andi (1#1 : BitVec 1)
    (fun k : Fin 1 => val_main_call2_v11 (F := Ideal) tg (reduces_d2.lift (ix2 R (0 : Fin 1)) k))).trans ?_
  rw [lift_d2, call2_v11_apply tg R hR]
  rfl

/-! ## The gather -/

/-- The batched gather at `(R, 0)`: row `R` of the operand at row `R`'s start index, read signed and clamped into
    the row. -/
theorem gather_apply {α : Type} (y : S4096x32000.Idx → α) (idx : IVec S4096x1x1 32) (R : Fin 4096) :
    Host.gather gather_S4096x32000_S4096x1x1_S4096x1_n_1_0_0_1_2_11 y idx (ix2 R (0 : Fin 1))
      = y (ix2 R ⟨min (idx (ix3 R (0 : Fin 1) (0 : Fin 1))).toInt.toNat 31999, by omega⟩) := by
  unfold Host.gather
  refine congrArg y (funext fun a => Fin.ext ?_)
  match a with
  | ⟨0, _⟩ =>
    show GatherDims.start gather_S4096x32000_S4096x1x1_S4096x1_n_1_0_0_1_2_11 (ix2 R (0 : Fin 1)) idx 0
        + GatherDims.batchCoord gather_S4096x32000_S4096x1x1_S4096x1_n_1_0_0_1_2_11 (ix2 R (0 : Fin 1)) 0
        + GatherDims.offCoord gather_S4096x32000_S4096x1x1_S4096x1_n_1_0_0_1_2_11 (ix2 R (0 : Fin 1)) 0 = R.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show GatherDims.start gather_S4096x32000_S4096x1x1_S4096x1_n_1_0_0_1_2_11 (ix2 R (0 : Fin 1)) idx 1
        + GatherDims.batchCoord gather_S4096x32000_S4096x1x1_S4096x1_n_1_0_0_1_2_11 (ix2 R (0 : Fin 1)) 1
        + GatherDims.offCoord gather_S4096x32000_S4096x1x1_S4096x1_n_1_0_0_1_2_11 (ix2 R (0 : Fin 1)) 1
        = min (idx (ix3 R (0 : Fin 1) (0 : Fin 1))).toInt.toNat 31999
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ (gather_S4096x32000_S4096x1x1_S4096x1_n_1_0_0_1_2_11).startIndexMap from
      List.mem_singleton.mpr rfl)]
    have hsi : GatherDims.siIdx gather_S4096x32000_S4096x1x1_S4096x1_n_1_0_0_1_2_11 (ix2 R (0 : Fin 1))
        ⟨List.idxOf (1 : Fin 2) (gather_S4096x32000_S4096x1x1_S4096x1_n_1_0_0_1_2_11).startIndexMap,
          List.idxOf_lt_length_iff.2 (List.mem_singleton.mpr rfl)⟩ = ix3 R (0 : Fin 1) (0 : Fin 1) := by
      funext b; refine Fin.ext ?_
      match b with
      | ⟨0, _⟩ => rfl
      | ⟨1, _⟩ => rfl
      | ⟨2, _⟩ => rfl
    rw [hsi]
    rfl

/-- The same with the start index's word named: a word in range or not, the class read is `tOf` of the word. -/
theorem gather_tOf {α : Type} (y : S4096x32000.Idx → α) (idx : IVec S4096x1x1 32) (R : Fin 4096) (w : BitVec 32)
    (hw : idx (ix3 R (0 : Fin 1) (0 : Fin 1)) = w) :
    Host.gather gather_S4096x32000_S4096x1x1_S4096x1_n_1_0_0_1_2_11 y idx (ix2 R (0 : Fin 1)) = y (ix2 R (tOf w)) := by
  subst hw
  exact gather_apply y idx R

/-! ## The gathered log-probability -/

theorem idx_v25 (R : Fin 4096) : idx_main_v25 (ix1 R) = ix2 R (0 : Fin 1) :=
  funext fun a => Fin.ext (by
    match a with
    | ⟨0, _⟩ => show R.val / 1 = R.val; omega
    | ⟨1, _⟩ => rfl)

/-- Row `R`'s gathered log-probability as the reference computes it (`%25`), with the row's label a class. -/
theorem logp_apply (x : (⟨S4096x32000, .f32⟩ : BufTy).Contents (Elt Ideal)) (tg : (⟨S4096, .i32⟩ : BufTy).Contents (Elt Ideal))
    (R : Fin 4096) (hR : 0 ≤ (tg (ix1 R)).toInt ∧ (tg (ix1 R)).toInt < 32000) :
    val_main_v25 (F := Ideal) x tg (ix1 R) = refLp (rowOf x R) (tOf (tg (ix1 R))) := by
  rw [val_main_v25_apply, idx_v25, val_main_v24_apply, call2_v12_apply tg R hR, select_one]
  unfold val_main_call2_v13
  rw [gather_tOf _ _ R _ (call2_v5_apply tg R hR.1)]
  exact v22_apply x R (tOf (tg (ix1 R)))

end Cert.ReferenceIdeal.RefLogp

end
-- ==== Proof.RefValue.lean ====
/-
  The reference's result: the closing formula over the per-row deviations and log-probabilities.
-/
import proofs.«424387_j11055245820044_3_alg».proof.Proof.RefReadP
import proofs.«424387_j11055245820044_3_alg».proof.Proof.RowSpec
import proofs.«424387_j11055245820044_3_alg».proof.Proof.RefDev
import proofs.«424387_j11055245820044_3_alg».proof.Proof.RefLogp
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.ReadP Cert.RowSpec

/-- A rank-1 index set of extent 4096 is its one coordinate's range … -/
def idxEquiv1 : (⟨1, ![4096]⟩ : Shape).Idx ≃ Fin 4096 where
  toFun j := j 0
  invFun R := ix1 R
  left_inv j := (eq_ix1 j).symm
  right_inv _ := rfl

/-- … so a sum over it is the sum over the rows. -/
theorem sum_idx1 {M : Type*} [AddCommMonoid M] (f : (⟨1, ![4096]⟩ : Shape).Idx → M) :
    ∑ j, f j = ∑ R : Fin 4096, f (ix1 R) := by
  rw [← Equiv.sum_comp idxEquiv1.symm f]
  rfl

/-- Row `R`'s term of the first mean (`%19`): the exponential of the deviation plus its square. -/
theorem v19_apply (x : (⟨S4096x32000, .f32⟩ : BufTy).Contents (Elt Ideal)) (tg : (⟨S4096, .i32⟩ : BufTy).Contents (Elt Ideal))
    (R : Fin 4096) (hR : 0 ≤ (tg (ix1 R)).toInt ∧ (tg (ix1 R)).toInt < 32000) :
    val_main_v19 (F := Ideal) x tg (ix1 R)
      = Ideal.exp (refD (rowOf x R) (tOf (tg (ix1 R)))
          + refD (rowOf x R) (tOf (tg (ix1 R))) * refD (rowOf x R) (tOf (tg (ix1 R)))) := by
  rw [val_main_v19_apply, val_main_v18_apply, val_main_v17_apply, RefDev.dev_apply x tg R hR]
  simp only [Ideal.hostUnary_exp_def, Ideal.addf_def, Ideal.mulf_def]

/-- The reference's result from the two argument arrays, with every label a class. -/
theorem ref_result (x : (⟨S4096x32000, .f32⟩ : BufTy).Contents (Elt Ideal)) (tg : (⟨S4096, .i32⟩ : BufTy).Contents (Elt Ideal))
    (hrange : ∀ R : Fin 4096, 0 ≤ (tg (ix1 R)).toInt ∧ (tg (ix1 R)).toInt < 32000) :
    val_main_v31 (F := Ideal) x tg = fun _ => rval x tg := by
  funext i
  rw [val_main_v31_apply, val_main_v29_apply, val_main_v30_apply, val_main_v28_apply, val_main_v27_apply,
    val_main_v21_apply, val_main_v20_apply, val_main_v26_apply, val_main_cst_8_apply, val_main_cst_9_apply,
    val_main_cst_5_apply, val_main_cst_7_apply, val_main_cst_4_apply, val_main_cst_6_apply, sum_idx1, sum_idx1,
    Finset.sum_congr rfl (fun R _ => v19_apply x tg R (hrange R)),
    Finset.sum_congr rfl (fun R _ => RefLogp.logp_apply x tg R (hrange R))]
  simp only [Ideal.addf_def, Ideal.mulf_def, Ideal.hostDivf_def, Ideal.hostNegf_def, Ideal.negf_def, Ideal.ofBits_def]
  rfl

end Cert.ReferenceIdeal.RefValue

end
-- ==== Proof.lean ====
/-
  The certificate's five claims.

  The kernel streams each row of the 4096 × 32000 logits once, keeping a running maximum and a running sum of
  exponentials rescaled whenever the maximum moves, and ends with the row's log-sum-exp `m + log s`; the host then
  takes the label's logit `x_t`, forms `log p_t = x_t - lse`, the deviation `2 (1 - p_t) / 32000`, and the loss
  `mean (exp (d + d²)) - mean (log p_t)`.  The reference forms the whole soft-max `p`, averages `|p - onehot|` over the
  classes, and gathers `log p_t` from the log-soft-max.  Over the extended reals, on real logits and labels that are
  classes, the two agree: the streaming pair is the two-pass pair (the rescaling is `exp (a) · exp (b) = exp (a + b)`),
  and since `p` sums to 1 with `0 ≤ p ≤ 1`, `∑ |p - onehot| = (1 - p_t) + ∑_{c ≠ t} p_c = 2 (1 - p_t)`.
  The precondition gives both facts: every logit finite, every label in `[0, 32000)`; without the second the claim
  fails (a label `-1` is wrapped by the gather to class 31999 but matches no class of the indicator).
  The three frames are the generated frame runs (the reference's: its run with the result dropped); the ideal pass
  rewrote nothing, so the idealization conjunct is `True`.
-/
import proofs.«424387_j11055245820044_3_alg».proof.Defs
import proofs.«424387_j11055245820044_3_alg».proof.Proof.Gen.Kernel
import proofs.«424387_j11055245820044_3_alg».proof.Proof.Gen.Kernel.Skeleton
import proofs.«424387_j11055245820044_3_alg».proof.Proof.Gen.Kernel.Launch
import proofs.«424387_j11055245820044_3_alg».proof.Proof.Gen.Kernel.Points
import proofs.«424387_j11055245820044_3_alg».proof.Proof.Gen.Kernel.Frame
import proofs.«424387_j11055245820044_3_alg».proof.Proof.Gen.KernelIdeal
import proofs.«424387_j11055245820044_3_alg».proof.Proof.Gen.KernelIdeal.Skeleton
import proofs.«424387_j11055245820044_3_alg».proof.Proof.Gen.KernelIdeal.Launch
import proofs.«424387_j11055245820044_3_alg».proof.Proof.Gen.KernelIdeal.Points
import proofs.«424387_j11055245820044_3_alg».proof.Proof.Gen.KernelIdeal.Frame
import proofs.«424387_j11055245820044_3_alg».proof.Proof.Gen.ReferenceIdeal
import proofs.«424387_j11055245820044_3_alg».proof.Proof.Gen.Pre_finite_inputs
import proofs.«424387_j11055245820044_3_alg».proof.Proof.RowLaw
import proofs.«424387_j11055245820044_3_alg».proof.Proof.PreFacts
import proofs.«424387_j11055245820044_3_alg».proof.Proof.KInvariant
import proofs.«424387_j11055245820044_3_alg».proof.Proof.KPrefix
import proofs.«424387_j11055245820044_3_alg».proof.Proof.KTail
import proofs.«424387_j11055245820044_3_alg».proof.Proof.RefRun
import proofs.«424387_j11055245820044_3_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The kernel's program ends with its result at the closing formula over the kernel's per-row quantities
    (the region's rows of log-sum-exps, the gathered label logits, the host's arithmetic after the region). -/
theorem kernel_run (m : (ℓ : Loc Cert.KernelIdeal.nD Cert.KernelIdeal.τ Cert.KernelIdeal.sig) → Buf (Elt Ideal) ℓ)
    (ρ : Dev Cert.KernelIdeal.nD → PrngReg)
    (hrange : ∀ (c : Dev Cert.KernelIdeal.nD) (R : Fin 4096),
      0 ≤ (Cert.KernelIdeal.Prefix.labels m c (ix1 R)).toInt ∧ (Cert.KernelIdeal.Prefix.labels m c (ix1 R)).toInt < 32000) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v21)
            = (fun _ => Cert.RowSpec.kval (Cert.KernelIdeal.Prefix.logits m c) (Cert.KernelIdeal.Prefix.labels m c))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) := by
  refine (θ_run Cert.KernelIdeal.defs _ _).mono (fun _ h c => ⟨?_, ?_, ?_⟩) (Cert.KernelIdeal.Gen.run_main m ρ)
  · refine ((h c).2 Cert.KernelIdeal.main_v21 (Pipeline.mem_restRefs_of Cert.KernelIdeal.main_v21 (by decide) (by decide))).trans ?_
    exact Cert.KernelIdeal.Tail.result_eq m c
      (fun R => Cert.KernelIdeal.Prefix.target_logit m c (hrange c) R)
      (fun R => congrFun (Cert.KernelIdeal.Invariant.lse_final m c) (ix2 R 0))
  · exact ((h c).1 0).trans (((Cert.KernelIdeal.Gen.dats m 0 c).arrAt_in 0 rfl _).trans
      ((Cert.KernelIdeal.Gen.A_eq m c 0).trans (Cert.KernelIdeal.Gen.V_main_arg0 m c)))
  · exact ((h c).2 Cert.KernelIdeal.main_arg1 (Pipeline.mem_restRefs_of Cert.KernelIdeal.main_arg1 (by decide) (by decide))).trans
      (Cert.KernelIdeal.Gen.W_main_arg1 m (Cert.KernelIdeal.Gen.dats m) c)

/-- At the ideal instance, from memories agreeing on the arguments and satisfying the precondition, the kernel's
    program and the reference end with the same result: the closing formula over per-row quantities that agree row
    by row (the per-row law, on real logits and labels that are classes). -/
theorem algebraic : Cert.algebraic_KernelIdeal_ReferenceIdeal := by
  intro m ρ m' ρ' hpre hagree
  have hP := fun c : Dev Cert.KernelIdeal.nD => Cert.PreFacts.pre_facts
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (hpre c)
  refine ⟨fun c => fun _ => Cert.RowSpec.kval (Cert.KernelIdeal.Prefix.logits m c) (Cert.KernelIdeal.Prefix.labels m c),
    kernel_run m ρ (fun c R => (hP c).2 R), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefValue.ref_result _ _ (fun R => (hP c).2 R)]
  funext _
  exact (Cert.RowSpec.kval_eq_rval _ _ (hP c).1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
